-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S16384 : Shape := ⟨1, ![16384]⟩
abbrev S8192 : Shape := ⟨1, ![8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S8192 : S_.BroadcastsInDim S8192 (![] : Fin 0 → Fin S8192.rank)
  reducesTo_S8192_S_d0 : S8192.ReducesTo [0] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x8192 .f32) (main_arg1 : IVec S16384 32) (main_arg2 : FVec F S8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 8192#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x8192 : Shape := ⟨2, ![16384, 8192]⟩
abbrev S16384 : Shape := ⟨1, ![16384]⟩
abbrev S8192 : Shape := ⟨1, ![8192]⟩
abbrev S16384x1 : Shape := ⟨2, ![16384, 1]⟩
abbrev S4x16384 : Shape := ⟨2, ![4, 16384]⟩
abbrev S256x8192 : Shape := ⟨2, ![256, 8192]⟩
abbrev S256x1 : Shape := ⟨2, ![256, 1]⟩
abbrev S4x256 : Shape := ⟨2, ![4, 256]⟩
abbrev S256 : Shape := ⟨1, ![256]⟩
abbrev S256x4 : Shape := ⟨2, ![256, 4]⟩
abbrev S1x16384 : Shape := ⟨2, ![1, 16384]⟩
abbrev S_ : Shape := ⟨0, ![]⟩

abbrev nBuf : Space → Nat
  | .hbm => 53
  | .vmem => 6
  | .smem => 0
  | _ => 0

abbrev bufTy : (tb : Table) → Fin (tcTables nBuf tb) → BufTy
  | .hbm, ⟨0, _⟩ => ⟨S16384x8192, .f32⟩
  | .hbm, ⟨1, _⟩ => ⟨S16384, .i32⟩
  | .hbm, ⟨2, _⟩ => ⟨S8192, .f32⟩
  | .hbm, ⟨3, _⟩ => ⟨S16384x1, .i32⟩
  | .hbm, ⟨4, _⟩ => ⟨S4x16384, .f32⟩
  | .hbm, ⟨5, _⟩ => ⟨S1x16384, .f32⟩
  | .hbm, ⟨6, _⟩ => ⟨S16384, .f32⟩
  | .hbm, ⟨7, _⟩ => ⟨S1x16384, .f32⟩
  | .hbm, ⟨8, _⟩ => ⟨S16384, .f32⟩
  | .hbm, ⟨9, _⟩ => ⟨S1x16384, .f32⟩
  | .hbm, ⟨10, _⟩ => ⟨S16384, .f32⟩
  | .hbm, ⟨11, _⟩ => ⟨S1x16384, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x1, .i32⟩
  | .local _ .vmem, ⟨3, _⟩ => ⟨S256x1, .i32⟩
  | .local _ .vmem, ⟨4, _⟩ => ⟨S4x256, .f32⟩
  | .local _ .vmem, ⟨5, _⟩ => ⟨S4x256, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384_S16384x1 : S16384.ShapeCasts S16384x1
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  broadcasts_S256x1_S256x8192 : S256x1.Broadcasts S256x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x8192_d1_w32 : S256x8192.Iotas .tc 32 [1]
  concatenates_S256x1_S256x1_S256x1_S256x1_S256x4_d1 : Shape.Concatenates [S256x1, S256x1, S256x1, S256x1] S256x4 1
  transposes_S256x4_p1_0_S4x256 : S256x4.Transposes [1, 0] S4x256
  inb_S4x256_S4x256_0_0 : ∀ a, (![0, 0] : Fin 2 → Nat) a + S4x256.size a ≤ S4x256.size a
  h_S4x256 : 0 < S4x256.numel
  slices_S4x16384_S1x16384_0_0 : S4x16384.Slices ![0, 0] S1x16384
  shapeCasts_S1x16384_S16384 : S1x16384.ShapeCasts S16384
  slices_S4x16384_S1x16384_1_0 : S4x16384.Slices ![1, 0] S1x16384
  slices_S4x16384_S1x16384_2_0 : S4x16384.Slices ![2, 0] S1x16384
  slices_S4x16384_S1x16384_3_0 : S4x16384.Slices ![3, 0] S1x16384
  reducesTo_S16384_S_d0 : S16384.ReducesTo [0] S_
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  gather_S8192_S16384x1_S16384_n_0_n_n_0_1_1_wf : GatherDims.WF S8192 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x8192.size a
  hwx0_0 : ∀ i : grid0.Coords, EltTy.bits .f32 = 32 ∨ (Rect.block (s := S16384x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x16384.size a
  hwx0_2 : ∀ i : grid0.Coords, EltTy.bits .f32 = 32 ∨ (Rect.block (s := S4x16384) S4x256.size (cc0_transform_2 i) (hinb0_2 i)).WholeWords (EltTy.packing .f32)

variable [Facts₀]

def gather_S8192_S16384x1_S16384_n_0_n_n_0_1_1 : GatherDims S8192 S16384x1 S16384 where
  offsetDims := []
  collapsedSliceDims := [0]
  operandBatchingDims := []
  startIndicesBatchingDims := []
  startIndexMap := [0]
  indexVectorDim := 1
  sliceSizes := ![1]
  wf := gather_S8192_S16384x1_S16384_n_0_n_n_0_1_1_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S16384 : Shape := ⟨1, ![16384]⟩
abbrev S8192 : Shape := ⟨1, ![8192]⟩
abbrev S_ : Shape := ⟨0, ![]⟩
abbrev S16384x1 : Shape := ⟨2, ![16384, 1]⟩
abbrev S16384x2 : Shape := ⟨2, ![16384, 2]⟩

abbrev nBuf : Space → Nat
  | .hbm => 85
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384, .i32⟩
  | .hbm, ⟨2, _⟩ => ⟨S8192, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x8192, .f32⟩
  | .hbm, ⟨16, _⟩ => ⟨S16384x8192, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x8192, .f32⟩
  | .hbm, ⟨36, _⟩ => ⟨S16384x8192, .f32⟩
  | .hbm, ⟨37, _⟩ => ⟨S16384x8192, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1, .f32⟩
  | .hbm, ⟨42, _⟩ => ⟨S16384x8192, .f32⟩
  | .hbm, ⟨43, _⟩ => ⟨S16384x8192, .f32⟩
  | .hbm, ⟨44, _⟩ => ⟨S_, .f32⟩
  | .hbm, ⟨45, _⟩ => ⟨S_, .f32⟩
  | .hbm, ⟨46, _⟩ => ⟨S16384x8192, .f32⟩
  | .hbm, ⟨47, _⟩ => ⟨S16384, .i32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S16384x1, .i32⟩
  | .hbm, ⟨63, _⟩ => ⟨S16384x1, .i32⟩
  | .hbm, ⟨64, _⟩ => ⟨S16384x2, .i32⟩
  | .hbm, ⟨65, _⟩ => ⟨S16384, .f32⟩
  | .hbm, ⟨66, _⟩ => ⟨S16384x8192, .f32⟩
  | .hbm, ⟨67, _⟩ => ⟨S16384x8192, .f32⟩
  | .hbm, ⟨68, _⟩ => ⟨S16384x8192, .f32⟩
  | .hbm, ⟨69, _⟩ => ⟨S_, .f32⟩
  | .hbm, ⟨70, _⟩ => ⟨S16384, .f32⟩
  | .hbm, ⟨71, _⟩ => ⟨S_, .i32⟩
  | .hbm, ⟨72, _⟩ => ⟨S16384, .i32⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S16384x1, .i32⟩
  | .hbm, ⟨79, _⟩ => ⟨S16384, .f32⟩
  | .hbm, ⟨80, _⟩ => ⟨S16384, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v17 : Ref sig .tc := ⟨.hbm, 43, rfl⟩
abbrev main_cst_8 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c : Ref sig .tc := ⟨.hbm, 48, rfl⟩
abbrev main_v21 : Ref sig .tc := ⟨.hbm, 49, rfl⟩
abbrev main_v22 : Ref sig .tc := ⟨.hbm, 50, rfl⟩
abbrev main_c_9 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_10 : Ref sig .tc := ⟨.hbm, 55, rfl⟩
abbrev main_v26 : Ref sig .tc := ⟨.hbm, 56, rfl⟩
abbrev main_v27 : Ref sig .tc := ⟨.hbm, 57, rfl⟩
abbrev main_c_11 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_12 : Ref sig .tc := ⟨.hbm, 69, rfl⟩
abbrev main_v38 : Ref sig .tc := ⟨.hbm, 70, rfl⟩
abbrev main_c_13 : Ref sig .tc := ⟨.hbm, 71, rfl⟩
abbrev main_v39 : Ref sig .tc := ⟨.hbm, 72, rfl⟩
abbrev main_v40 : Ref sig .tc := ⟨.hbm, 73, rfl⟩
abbrev main_c_14 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_15 : Ref sig .tc := ⟨.hbm, 81, rfl⟩
abbrev main_v47 : Ref sig .tc := ⟨.hbm, 82, rfl⟩
abbrev main_cst_16 : Ref sig .tc := ⟨.hbm, 83, rfl⟩
abbrev main_v48 : Ref sig .tc := ⟨.hbm, 84, rfl⟩

abbrev nD : Nat := 1
abbrev τ : Topo := Topo.v7x

variable {F : FTy → Type} [FloatOps F]

class Facts₀ : Prop where
  reducesTo_S16384x8192_S16384_d1 : S16384x8192.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)
  reducesTo_S16384_S_d0 : S16384.ReducesTo [0] S_
  bcast_S_S16384x8192 : S_.BroadcastsInDim S16384x8192 (![] : Fin 0 → Fin S16384x8192.rank)
  concatenates_S16384x1_S16384x1_S16384x2_d1 : Shape.Concatenates [S16384x1, S16384x1] S16384x2 1
  scatter_S16384x8192_S16384x2_S16384_n_01_01_1_wf : ScatterDims.WF S16384x8192 S16384x2 S16384 [] [0, 1] [0, 1] 1
  gather_S8192_S16384x1_S16384_n_0_n_n_0_1_1_wf : GatherDims.WF S8192 S16384x1 S16384 [] [0] [] [0] [] 1 ![1]

variable [Facts₀]

def scatter_S16384x8192_S16384x2_S16384_n_01_01_1 : ScatterDims S16384x8192 S16384x2 S16384 where
  updateWindowDims := []
  insertedWindowDims := [0, 1]
  scatterDimsToOperandDims := [0, 1]
  indexVectorDim := 1
  wf := scatter_S16384x8192_S16384x2_S16384_n_01_01_1_wf
def gather_S8192_S16384x1_S16384_n_0_n_n_0_1_1 : GatherDims S8192 S16384x1 S16384 where
  offsetDims := []
  collapsedSliceDims := [0]
  operandBatchingDims := []
  startIndicesBatchingDims := []
  startIndexMap := [0]
  indexVectorDim := 1
  sliceSizes := ![1]
  wf := gather_S8192_S16384x1_S16384_n_0_n_n_0_1_1_wf

class Facts : Prop extends Facts₀ where

variable [Facts]
-- ==== Proof.Consts.lean ====
/-
  The float constants the two programs spell, as the extended reals their bit patterns denote.

  A finite IEEE pattern denotes a dyadic rational: sign × significand × a power of two. The ones met here are
  -∞ (the neutral element of a maximum), 1, 16384 (the number of rows), 8192 and 8191 (the number of classes, and one
  less) and the single-precision number nearest to one tenth, 13421773 / 2²⁷.
-/
import Idealize.ShloMosaic.PureOps.Ideal

noncomputable section

namespace Cert.Consts

open Idealize.ShloMosaic

/-- The pattern of -∞ is the bottom of the extended reals. -/
theorem ofBits_neg_inf : Ideal.ofBits .f32 0xFF800000#32 = ⊥ := by
  simp [Ideal.ofBits, Ideal.ieee]

/-- The pattern of 1.0. -/
theorem ofBits_one : Ideal.ofBits .f32 0x3F800000#32 = ((1 : ℝ) : EReal) := by
  simp [Ideal.ofBits, Ideal.ieee, -EReal.coe_mul]; norm_num

/-- The pattern of 16384.0. -/
theorem ofBits_16384 : Ideal.ofBits .f32 0x46800000#32 = ((16384 : ℝ) : EReal) := by
  simp [Ideal.ofBits, Ideal.ieee, -EReal.coe_mul]; norm_num

/-- The pattern of 8192.0. -/
theorem ofBits_8192 : Ideal.ofBits .f32 0x46000000#32 = ((8192 : ℝ) : EReal) := by
  simp [Ideal.ofBits, Ideal.ieee, -EReal.coe_mul]; norm_num

/-- The pattern of 8191.0. -/
theorem ofBits_8191 : Ideal.ofBits .f32 0x45FFF800#32 = ((8191 : ℝ) : EReal) := by
  simp [Ideal.ofBits, Ideal.ieee, -EReal.coe_mul]; norm_num

/-- The single-precision number nearest to one tenth. -/
def tenth : ℝ := 13421773 / 134217728

/-- The pattern the source's 0.1 rounds to. -/
theorem ofBits_tenth : Ideal.ofBits .f32 0x3DCCCCCD#32 = ((tenth : ℝ) : EReal) := by
  unfold tenth
  simp [Ideal.ofBits, Ideal.ieee, -EReal.coe_mul]; norm_num

end Cert.Consts

end
-- ==== Proof.RowMath.lean ====
/-
  The mathematics of one row of a soft-max cross entropy, over the reals, and how it is read on the extended reals.

  For a row p of n > 0 real logits write M for its maximum, S for the sum over the classes of exp (p c - M), so that the
  log-soft-max of class c is (p c - M) - log S.
  * S is at least 1 (the class that attains the maximum contributes exp 0), so log S is an honest logarithm.
  * The largest soft-max probability of the row, max over c of exp (p c - M) / S, is 1 / S = exp (-(log S)): every numerator
    is at most exp 0 = 1, and the maximal class attains it.
  * A smoothed target distribution puts weight conf on the label t and weight off on every other class.  Its cross entropy
    against the log-soft-max, the sum over c of -(weight c) * ((p c - M) - log S), is
       -off * (sum over c of (p c - M)  -  n * log S)  -  (conf - off) * ((p t - M) - log S):
    the uniform part off sees every class, the label sees the excess conf - off once more.
  On the extended reals a finite sum of reals is the real sum, the maximum from -∞ of reals is the real maximum, and the
  exact division, logarithm and exponential of reals (with a nonzero divisor, a positive argument of the logarithm) are the
  real ones.
-/
import Idealize.ShloMosaic.PureOps.Ideal

open scoped BigOperators

noncomputable section

namespace Cert.RowMath

open Idealize.ShloMosaic

/-! ## Reals inside the extended reals -/

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The exact quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul]
  congr 1
  ring

/-- The exact logarithm of a positive real is the real logarithm. -/
theorem log_coe_pos {s : ℝ} (hs : 0 < s) : Ideal.log (s : EReal) = ((Real.log s : ℝ) : EReal) := by
  rw [Ideal.log_coe, if_neg (not_le.2 hs)]

/-! ## One row -/

section Row

variable {n : ℕ} (hn : 0 < n) (p : Fin n → ℝ)

/-- The maximum of the row. -/
def rmax : ℝ := Finset.univ.sup' ⟨⟨0, hn⟩, Finset.mem_univ _⟩ p

theorem le_rmax (c : Fin n) : p c ≤ rmax hn p := Finset.le_sup' p (Finset.mem_univ c)

theorem exists_eq_rmax : ∃ c, p c = rmax hn p := by
  obtain ⟨c, -, h⟩ := Finset.exists_mem_eq_sup' (⟨⟨0, hn⟩, Finset.mem_univ _⟩ : (Finset.univ : Finset (Fin n)).Nonempty) p
  exact ⟨c, h.symm⟩

/-- From -∞ the running maximum over the row, taken in the extended reals, is the real maximum. -/
theorem fold_max_coe :
    (Finset.univ : Finset (Fin n)).fold max (⊥ : EReal) (fun c => ((p c : ℝ) : EReal)) = ((rmax hn p : ℝ) : EReal) := by
  apply le_antisymm
  · exact (Finset.fold_max_le _).2 ⟨bot_le, fun c _ => EReal.coe_le_coe_iff.2 (le_rmax hn p c)⟩
  · obtain ⟨c0, h0⟩ := exists_eq_rmax hn p
    exact (Finset.le_fold_max _).2 (Or.inr ⟨c0, Finset.mem_univ _, by rw [h0]⟩)

/-- The sum over the classes of exp (p c - M). -/
def rsum : ℝ := ∑ c, Real.exp (p c - rmax hn p)

theorem one_le_rsum : 1 ≤ rsum hn p := by
  obtain ⟨c0, h0⟩ := exists_eq_rmax hn p
  calc (1 : ℝ) = Real.exp (p c0 - rmax hn p) := by rw [h0, sub_self, Real.exp_zero]
    _ ≤ rsum hn p :=
      Finset.single_le_sum (f := fun c => Real.exp (p c - rmax hn p)) (fun c _ => (Real.exp_pos _).le) (Finset.mem_univ c0)

theorem rsum_pos : 0 < rsum hn p := lt_of_lt_of_le one_pos (one_le_rsum hn p)

/-- The largest soft-max probability of the row is exp (-(log S)). -/
theorem max_softmax :
    rmax hn (fun c => Real.exp (p c - rmax hn p) / rsum hn p) = Real.exp (-(Real.log (rsum hn p))) := by
  have hS := rsum_pos hn p
  rw [Real.exp_neg, Real.exp_log hS]
  apply le_antisymm
  · refine Finset.sup'_le _ _ fun c _ => ?_
    rw [div_eq_mul_inv]
    calc Real.exp (p c - rmax hn p) * (rsum hn p)⁻¹ ≤ 1 * (rsum hn p)⁻¹ :=
          mul_le_mul_of_nonneg_right (by
            rw [← Real.exp_zero]; exact Real.exp_le_exp.2 (sub_nonpos.2 (le_rmax hn p c))) (inv_nonneg.2 hS.le)
      _ = (rsum hn p)⁻¹ := one_mul _
  · obtain ⟨c0, h0⟩ := exists_eq_rmax hn p
    refine le_trans (le_of_eq ?_)
      (le_rmax hn (fun c => Real.exp (p c - rmax hn p) / rsum hn p) c0)
    show (rsum hn p)⁻¹ = Real.exp (p c0 - rmax hn p) / rsum hn p
    rw [h0, sub_self, Real.exp_zero, one_div]

end Row

/-- The cross entropy of a smoothed target against a log-soft-max row, in the closed form that needs the row's two sums
    and the label's entry only. -/
theorem row_loss {n : ℕ} (a : Fin n → ℝ) (l off conf : ℝ) (t : Fin n) :
    ∑ c, (-(if c = t then conf else off)) * (a c - l)
      = (-off) * ((∑ c, a c) - (n : ℝ) * l) - (conf - off) * (a t - l) := by
  have h : ∀ c, (-(if c = t then conf else off)) * (a c - l)
      = (-off) * (a c - l) - (if c = t then (conf - off) * (a c - l) else 0) := by
    intro c
    split <;> ring
  rw [Finset.sum_congr rfl (fun c _ => h c), Finset.sum_sub_distrib, ← Finset.mul_sum, Finset.sum_sub_distrib,
    Finset.sum_const, Finset.card_univ, Fintype.card_fin, nsmul_eq_mul, Finset.sum_ite_eq' Finset.univ t,
    if_pos (Finset.mem_univ t)]

end Cert.RowMath

end
-- ==== Proof.Spec.lean ====
/-
  What both programs compute: the class-weighted mean, over 16384 rows of 8192 logits, of a cross entropy against a smoothed
  target whose smoothing adapts to the batch's average confidence.

  Per row n, with M the row's maximum and S the sum over the classes of exp (logit - M):
    lse n = log S,   sub n = the sum over the classes of (logit - M),   tgt n = (the label's logit) - M.
  Over the batch: the largest soft-max probability of row n is exp (-(lse n)); their mean is the average confidence;
    sm = 0.1 · (1 - average confidence),  conf = 1 - sm,  off = sm / 8191.
  The loss of row n is  -off · (sub n - 8192 · lse n) - (conf - off) · (tgt n - lse n), the cross entropy of the
  distribution "conf on the label, off elsewhere" against the row's log-soft-max (RowMath.row_loss). The result is the mean
  over the rows of (loss of row n) · (the class weight of row n's label).

  Here the four per-row statistics are also given as they are computed on extended reals (a maximum from -∞, exact sums,
  the label picked by comparing the class number with the label's word), together with what they are when the row holds
  reals; and the class weight of a label as the gather x[label] prints it.
-/
import Idealize.ShloMosaic.Lib.ValueIdx
import Idealize.ShloMosaic.Lib.StableHlo.Predicate
import Idealize.ShloMosaic.Lib.Pipeline.Value
import Idealize.ShloMosaic.PureOps.Ideal.Laws
import proofs.«424245_j53609781789400_3_alg».proof.Proof.Consts
import proofs.«424245_j53609781789400_3_alg».proof.Proof.RowMath

open scoped BigOperators

noncomputable section

namespace Cert.Spec

open Idealize.ShloMosaic Idealize.ShloMosaic.ValueIdx Cert.RowMath

/-- There is at least one class. -/
theorem hC : 0 < 8192 := by norm_num

/-! ## The batch over the reals -/

section Reals

variable (p : Fin 16384 → Fin 8192 → ℝ) (t : Fin 16384 → Fin 8192)

/-- The logarithm of the row's sum of exponentials of the shifted logits. -/
def lse (n : Fin 16384) : ℝ := Real.log (rsum hC (p n))
/-- The row's sum of shifted logits. -/
def sub (n : Fin 16384) : ℝ := ∑ c, (p n c - rmax hC (p n))
/-- The label's shifted logit. -/
def tgt (n : Fin 16384) : ℝ := p n (t n) - rmax hC (p n)
/-- The batch's average confidence: the mean of the rows' largest soft-max probabilities. -/
def meanConf : ℝ := (∑ n, Real.exp (-(lse p n))) / 16384
/-- The smoothing: a tenth (as single precision has it) of the average lack of confidence. -/
def sm : ℝ := Consts.tenth * (1 - meanConf p)
/-- The weight of each class that is not the label. -/
def off : ℝ := sm p / 8191
/-- The weight of the label. -/
def conf : ℝ := 1 - sm p
/-- The loss of row n. -/
def L (n : Fin 16384) : ℝ := (-(off p)) * (sub p n - 8192 * lse p n) - (conf p - off p) * (tgt p t n - lse p n)
/-- The result: the mean of the rows' losses, each times the class weight of its label. -/
def total (w : (⟨1, ![8192]⟩ : Shape).Idx → EReal) : EReal :=
  Ideal.div (0 + ∑ n : Fin 16384, ((L p t n : ℝ) : EReal) * w (ix1 (t n))) ((16384 : ℝ) : EReal)

end Reals

/-- The inputs hold reals and labels: the logits array is the table p of reals, the label words are the class numbers t. -/
structure Inputs (pred : (⟨2, ![16384, 8192]⟩ : Shape).Idx → EReal) (tg : IVec ⟨1, ![16384]⟩ 32)
    (p : Fin 16384 → Fin 8192 → ℝ) (t : Fin 16384 → Fin 8192) : Prop where
  hp : ∀ n c, pred (ix2 n c) = ((p n c : ℝ) : EReal)
  ht : ∀ n, tg (ix1 n) = BitVec.ofNat 32 (t n).val

/-! ## The four statistics of one row, on extended reals -/

/-- The row's maximum, from -∞. -/
def rowMaxE (x : Fin 8192 → EReal) : EReal :=
  (Finset.univ : Finset (Fin 8192)).fold max (Ideal.ofBits .f32 0xFF800000#32) x
/-- The logarithm of the sum of exponentials of the shifted row. -/
def rowLseE (x : Fin 8192 → EReal) : EReal := Ideal.log (∑ c, Ideal.exp (x c - rowMaxE x))
/-- The sum of the shifted row. -/
def rowSubE (x : Fin 8192 → EReal) : EReal := ∑ c, (x c - rowMaxE x)
/-- The shifted entry whose class number equals the label word w (a sum over the classes of the entry where the numbers
    agree and zero elsewhere). -/
def rowTgtE (x : Fin 8192 → EReal) (w : BitVec 32) : EReal :=
  ∑ c : Fin 8192, Scalar.select (IntOp.cmpi .eq (BitVec.ofNat 32 c.val) w) (x c - rowMaxE x) 0
/-- Statistic number s of a row: maximum, log-sum-exp, sum, label entry. -/
def rowStat (s : Fin 4) (x : Fin 8192 → EReal) (w : BitVec 32) : EReal :=
  match s with
  | 0 => rowMaxE x
  | 1 => rowLseE x
  | 2 => rowSubE x
  | 3 => rowTgtE x w

theorem rowStat_zero (x : Fin 8192 → EReal) (w : BitVec 32) : rowStat 0 x w = rowMaxE x := rfl
theorem rowStat_one (x : Fin 8192 → EReal) (w : BitVec 32) : rowStat 1 x w = rowLseE x := rfl
theorem rowStat_two (x : Fin 8192 → EReal) (w : BitVec 32) : rowStat 2 x w = rowSubE x := rfl
theorem rowStat_three (x : Fin 8192 → EReal) (w : BitVec 32) : rowStat 3 x w = rowTgtE x w := rfl

section RowReals

variable (x : Fin 8192 → EReal) (q : Fin 8192 → ℝ) (hx : ∀ c, x c = ((q c : ℝ) : EReal))
include hx

/-- On a row of reals the maximum from -∞ is the real maximum. -/
theorem rowMaxE_coe : rowMaxE x = ((rmax hC q : ℝ) : EReal) := by
  unfold rowMaxE
  rw [Consts.ofBits_neg_inf, show x = fun c => ((q c : ℝ) : EReal) from funext hx]
  exact fold_max_coe hC q

/-- The sum of exponentials of the shifted row. -/
theorem rowSumExp_coe : ∑ c, Ideal.exp (x c - rowMaxE x) = ((rsum hC q : ℝ) : EReal) := by
  rw [rowMaxE_coe x q hx]
  unfold rsum
  rw [← coe_sum]
  refine Finset.sum_congr rfl fun c _ => ?_
  rw [hx c, ← EReal.coe_sub, Ideal.exp_coe]

theorem rowLseE_coe : rowLseE x = ((Real.log (rsum hC q) : ℝ) : EReal) := by
  unfold rowLseE
  rw [rowSumExp_coe x q hx, log_coe_pos (rsum_pos hC q)]

theorem rowSubE_coe : rowSubE x = ((∑ c, (q c - rmax hC q) : ℝ) : EReal) := by
  unfold rowSubE
  rw [rowMaxE_coe x q hx, ← coe_sum]
  refine Finset.sum_congr rfl fun c _ => ?_
  rw [hx c, ← EReal.coe_sub]

/-- Comparing class numbers with the word of class k picks the shifted entry of class k. -/
theorem rowTgtE_coe (k : Fin 8192) : rowTgtE x (BitVec.ofNat 32 k.val) = ((q k - rmax hC q : ℝ) : EReal) := by
  unfold rowTgtE
  have hsel : ∀ c : Fin 8192, Scalar.select (IntOp.cmpi .eq (BitVec.ofNat 32 c.val) (BitVec.ofNat 32 k.val))
      (x c - rowMaxE x) 0 = if c = k then (x c - rowMaxE x) else 0 := by
    intro c
    by_cases h : c = k
    · subst h
      rw [if_pos rfl, StableHlo.Predicate.cmpi_eq_iff.2 rfl]
      exact select_one _ _
    · rw [if_neg h]
      have hne : IntOp.cmpi .eq (BitVec.ofNat 32 c.val) (BitVec.ofNat 32 k.val) ≠ 1#1 := by
        intro h1
        have e := StableHlo.Predicate.cmpi_eq_iff.1 h1
        have e' := congrArg BitVec.toNat e
        rw [BitVec.toNat_ofNat, BitVec.toNat_ofNat] at e'
        have hc := c.isLt
        have hk := k.isLt
        exact h (Fin.ext (by omega))
      exact if_neg hne
  rw [Finset.sum_congr rfl (fun c _ => hsel c), Finset.sum_ite_eq' Finset.univ k, if_pos (Finset.mem_univ k),
    rowMaxE_coe x q hx, hx k, ← EReal.coe_sub]

end RowReals

/-! ## The class weight of a label -/

/-- jnp's class_weights[labels] prints as a gather over the column of labels, each first wrapped the numpy way (a negative
    index counts from the end). For a label that is a class number the wrap does nothing and the gather reads that class. -/
theorem gather_label (d : GatherDims ⟨1, ![8192]⟩ ⟨2, ![16384, 1]⟩ ⟨1, ![16384]⟩)
    (hcoll : d.collapsedSliceDims = [0]) (hob : d.operandBatchingDims = [])
    (hsim : d.startIndexMap = [0]) (hivd : d.indexVectorDim = 1)
    (hb : (⟨0, ![]⟩ : Shape).BroadcastsInDim ⟨1, ![16384]⟩ (![] : Fin 0 → Fin 1))
    (hb1 : (⟨1, ![16384]⟩ : Shape).BroadcastsInDim ⟨2, ![16384, 1]⟩ (![0] : Fin 1 → Fin 2))
    (w : (⟨1, ![8192]⟩ : Shape).Idx → EReal) (tg : IVec ⟨1, ![16384]⟩ 32) (t : Fin 16384 → Fin 8192)
    (ht : ∀ n, tg (ix1 n) = BitVec.ofNat 32 (t n).val) (n : Fin 16384) :
    Host.gather d w
        (broadcastInDim ⟨2, ![16384, 1]⟩ ![0] hb1
          (select (cmpi .slt tg (broadcastInDim ⟨1, ![16384]⟩ ![] hb (constantI ⟨0, ![]⟩ 32 0#32)))
            (addi tg (broadcastInDim ⟨1, ![16384]⟩ ![] hb (constantI ⟨0, ![]⟩ 32 8192#32))) tg)) (ix1 n)
      = w (ix1 (t n)) := by
  have hk := (t n).isLt
  have e1 : (ix1 n : (⟨1, ![16384]⟩ : Shape).Idx) = Shape.Idx.ofFin n := by
    funext a
    have ha : a = 0 := Subsingleton.elim _ _
    subst ha
    rfl
  rw [e1, StableHlo.Predicate.gather_take d hcoll hob hsim hivd w _ n (by norm_num)]
  -- the start index of row n is the label's word: not negative, so not wrapped
  have hcol : (broadcastInDim ⟨2, ![16384, 1]⟩ ![0] hb1
      (select (cmpi .slt tg (broadcastInDim ⟨1, ![16384]⟩ ![] hb (constantI ⟨0, ![]⟩ 32 0#32)))
        (addi tg (broadcastInDim ⟨1, ![16384]⟩ ![] hb (constantI ⟨0, ![]⟩ 32 8192#32))) tg))
      (StableHlo.Predicate.ixP n) = BitVec.ofNat 32 (t n).val := by
    rw [broadcastInDim_apply _ hb1 _ _ (ix1 n) (by
      intro a
      match a with
      | ⟨0, _⟩ => rfl)]
    show Scalar.select (IntOp.cmpi .slt (tg (ix1 n)) 0#32) (IntOp.addi (tg (ix1 n)) 8192#32) (tg (ix1 n)) = _
    rw [ht n]
    have hlt : IntOp.cmpi .slt (BitVec.ofNat 32 (t n).val) 0#32 = 0#1 := by
      apply eq_zero_of_ne_one
      intro h1
      have : (BitVec.ofNat 32 (t n).val).slt 0#32 = true := by
        simpa [IntOp.cmpi, StableHlo.Predicate.ofBool_eq_one_iff] using h1
      simp only [BitVec.slt, decide_eq_true_eq] at this
      have hi : (BitVec.ofNat 32 (t n).val).toInt = ((t n).val : Int) :=
        StableHlo.Predicate.toInt_ofNat_small (t n).val (by omega)
      have h0 : (0#32 : BitVec 32).toInt = 0 := by decide
      omega
    rw [hlt, select_zero]
  have hi : (BitVec.ofNat 32 (t n).val).toInt = ((t n).val : Int) :=
    StableHlo.Predicate.toInt_ofNat_small (t n).val (by omega)
  refine congrArg w ?_
  funext a
  have ha : a = 0 := Subsingleton.elim _ _
  subst ha
  apply Fin.ext
  show min (_ : BitVec 32).toInt.toNat (8192 - 1) = (t n).val
  rw [hcol, hi, Int.toNat_natCast]
  omega

end Cert.Spec

end
-- ==== Proof.PreDecode.lean ====
/-
  The precondition read back: every logit is a real number and every label is a class number.

  The precondition is the conjunction of three "for all entries" tests: |logit| < +∞, |class weight| < +∞, and
  0 ≤ label < 8192 read as a signed 32-bit integer. An extended real whose absolute value max(x, -x) lies below +∞ is
  neither infinity, hence a real; a word whose signed value lies in [0, 8192) is the word of that natural number.
-/
import proofs.«424245_j53609781789400_3_alg».proof.Pre_finite_inputs
import proofs.«424245_j53609781789400_3_alg».proof.Proof.Spec
import Idealize.ShloMosaic.Lib.ReduceAll
import Idealize.ShloMosaic.Lib.Affine

noncomputable section

namespace Cert.PreDecode

open Idealize.ShloMosaic Idealize.ShloMosaic.ValueIdx Cert.Pre_finite_inputs

/-- A rank-0 array has one index. -/
instance : Subsingleton S_.Idx := ⟨fun _ _ => funext fun d => d.elim0⟩

/-- An extended real whose absolute value is below +∞ is a real. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := by
    simpa [Ideal.cmp, StableHlo.Predicate.ofBool_eq_one_iff] using h
  induction x using EReal.rec with
  | bot => simp at hlt
  | coe r => exact ⟨r, rfl⟩
  | top => simp at hlt

/-- A word whose signed value lies in [0, 8192) is the word of a natural number below 8192. -/
theorem word_of_range (w : BitVec 32) (h0 : IntOp.cmpi .sge w 0#32 = 1#1) (h1 : IntOp.cmpi .slt w 8192#32 = 1#1) :
    ∃ k : Fin 8192, w = BitVec.ofNat 32 k.val := by
  rw [IntOp.cmpi_sge] at h0
  rw [IntOp.cmpi_slt] at h1
  have z0 : (0#32 : BitVec 32).toInt = 0 := by decide
  have z1 : (8192#32 : BitVec 32).toInt = 8192 := by decide
  rw [z0] at h0
  rw [z1] at h1
  have hw := w.isLt
  have hc := BitVec.toInt_eq_toNat_cond w
  have hlt : w.toNat < 8192 := by
    split at hc <;> omega
  refine ⟨⟨w.toNat, hlt⟩, ?_⟩
  apply BitVec.eq_of_toNat_eq
  rw [BitVec.toNat_ofNat]
  show w.toNat = w.toNat % 2 ^ 32
  omega

variable [Cert.Pre_finite_inputs.Facts]

/-- Where the precondition holds the logits are a table of reals and the labels are class numbers. -/
theorem inputs_of_pre (pred : FVec Ideal S16384x8192 .f32) (tg : IVec S16384 32) (cw : FVec Ideal S8192 .f32)
    (h : fn (F := Ideal) pred tg cw = fun _ => 1#1) :
    ∃ (p : Fin 16384 → Fin 8192 → ℝ) (t : Fin 16384 → Fin 8192), Spec.Inputs pred tg p t := by
  have e := congrFun h ix0
  dsimp only [fn] at e
  obtain ⟨e12, e3⟩ := IntOp.andi_eq_one.1 e
  obtain ⟨e1, -⟩ := IntOp.andi_eq_one.1 e12
  have hfin := Host.reduce_andi_all _ _ _ _ _ e1
  have hrng := Host.reduce_andi_all _ _ _ _ _ e3
  have hreal : ∀ (n : Fin 16384) (c : Fin 8192), ∃ r : ℝ, pred (ix2 n c) = (r : EReal) := fun n c =>
    real_of_abs_lt _ (hfin (ix2 n c))
  have hword : ∀ n : Fin 16384, ∃ k : Fin 8192, tg (ix1 n) = BitVec.ofNat 32 k.val := fun n => by
    obtain ⟨a, b⟩ := IntOp.andi_eq_one.1 (hrng (ix1 n))
    exact word_of_range _ a b
  choose p hp using hreal
  choose t ht using hword
  exact ⟨p, t, ⟨hp, ht⟩⟩

end Cert.PreDecode

end
-- ==== Proof.KernelPayload.lean ====
import proofs.«424245_j53609781789400_3_alg».proof.Proof.Gen.KernelIdeal.Skeleton
import proofs.«424245_j53609781789400_3_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Payload

open Idealize.ShloMosaic Idealize.ShloMosaic.ValueIdx Cert.KernelIdeal Cert.KernelIdeal.Gen

section Layout
variable {α : Type}

/-- A vector of 256 entries kept as a column reads, at (r, 0), entry r. -/
theorem column_apply (v : S256.Idx → α) (h : S256.ShapeCasts S256x1) (r : Fin 256) :
    shapeCast S256x1 v h (ix2 r (0 : Fin 1)) = v (ix1 r) :=
  shapeCast_apply v h _ _ (by
    rw [Shape.rowMajor_val_one, Shape.rowMajor_val_two]
    show r.val = r.val * 1 + 0
    omega)

/-- A column spread over the 8192 classes reads, at (r, q), the column's entry r. -/
theorem spread_apply (v : S256x1.Idx → α) (h : S256x1.Broadcasts S256x8192) (r : Fin 256) (q : Fin 8192) :
    broadcastTo S256x8192 v h (ix2 r q) = v (ix2 r (0 : Fin 1)) :=
  broadcastTo_apply v h _ _ (fun a => by
    match a with
    | ⟨0, _⟩ =>
      show r.val = if (256 : ℕ) = 1 then 0 else r.val
      rw [if_neg (by decide)]
    | ⟨1, _⟩ =>
      show (0 : ℕ) = if (1 : ℕ) = 1 then 0 else q.val
      rw [if_pos rfl])

/-- The four columns laid side by side read, at (r, k), column k at (r, 0). -/
theorem sideBySide_apply (c0 c1 c2 c3 : S256x1.Idx → α)
    (h : Shape.Concatenates [S256x1, S256x1, S256x1, S256x1] S256x4 1) (r : Fin 256) :
    concatenate S256x4 1 [⟨S256x1, c0⟩, ⟨S256x1, c1⟩, ⟨S256x1, c2⟩, ⟨S256x1, c3⟩] h (ix2 r (0 : Fin 4)) = c0 (ix2 r (0 : Fin 1))
    ∧ concatenate S256x4 1 [⟨S256x1, c0⟩, ⟨S256x1, c1⟩, ⟨S256x1, c2⟩, ⟨S256x1, c3⟩] h (ix2 r (1 : Fin 4)) = c1 (ix2 r (0 : Fin 1))
    ∧ concatenate S256x4 1 [⟨S256x1, c0⟩, ⟨S256x1, c1⟩, ⟨S256x1, c2⟩, ⟨S256x1, c3⟩] h (ix2 r (2 : Fin 4)) = c2 (ix2 r (0 : Fin 1))
    ∧ concatenate S256x4 1 [⟨S256x1, c0⟩, ⟨S256x1, c1⟩, ⟨S256x1, c2⟩, ⟨S256x1, c3⟩] h (ix2 r (3 : Fin 4)) = c3 (ix2 r (0 : Fin 1)) := by
  have hi : ∀ (k : Fin 4) (b : Fin S256x1.rank), b.cast (rfl : S256x1.rank = S256x4.rank) ≠ (1 : Fin S256x4.rank) →
      ((ix2 r (0 : Fin 1) : S256x1.Idx) b).val = ((ix2 r k : S256x4.Idx) (b.cast rfl)).val := by
    intro k b
    match b with
    | ⟨0, _⟩ => exact fun _ => rfl
    | ⟨1, _⟩ => exact fun hne => absurd rfl hne
  refine ⟨?_, ?_, ?_, ?_⟩
  · exact concatenate_apply_piece (1 : Fin S256x4.rank) [⟨S256x1, c0⟩, ⟨S256x1, c1⟩, ⟨S256x1, c2⟩, ⟨S256x1, c3⟩] h _ 0
      (Nat.lt_of_sub_eq_succ rfl) S256x1 c0 rfl rfl 0 rfl (ix2 r (0 : Fin 1)) (hi 0) rfl
  · exact concatenate_apply_piece (1 : Fin S256x4.rank) [⟨S256x1, c0⟩, ⟨S256x1, c1⟩, ⟨S256x1, c2⟩, ⟨S256x1, c3⟩] h _ 1
      (Nat.lt_of_sub_eq_succ rfl) S256x1 c1 rfl rfl 1 rfl (ix2 r (0 : Fin 1)) (hi 1) rfl
  · exact concatenate_apply_piece (1 : Fin S256x4.rank) [⟨S256x1, c0⟩, ⟨S256x1, c1⟩, ⟨S256x1, c2⟩, ⟨S256x1, c3⟩] h _ 2
      (Nat.lt_of_sub_eq_succ rfl) S256x1 c2 rfl rfl 2 rfl (ix2 r (0 : Fin 1)) (hi 2) rfl
  · exact concatenate_apply_piece (1 : Fin S256x4.rank) [⟨S256x1, c0⟩, ⟨S256x1, c1⟩, ⟨S256x1, c2⟩, ⟨S256x1, c3⟩] h _ 3
      (Nat.lt_of_sub_eq_succ rfl) S256x1 c3 rfl rfl 3 rfl (ix2 r (0 : Fin 1)) (hi 3) rfl

end Layout

/-! ## Reductions over the classes, read at a row -/

/-- Row r with class k put back on the class axis is the entry (r, k). -/
theorem lift_row (h : S256x8192.Reduces [1] S256) (r : Fin 256) (k : Fin 8192) :
    h.lift (ix1 r) k = ix2 r k := by
  funext c
  apply Fin.ext
  match c with
  | ⟨0, _⟩ => rfl
  | ⟨1, _⟩ => rfl

/-- The sum over the classes, at row r. -/
theorem rowSum_apply (src : FVec Ideal S256x8192 .f32) (h : S256x8192.Reduces [1] S256) (hφ : FKind.Formats .f32)
    (hacc : (0x00000000#32 : BitVec 32) = FKind.add.neutral .f32 hφ) (r : Fin 256) :
    multiReduction .add [1] S256 src 0x00000000#32 h hφ hacc (ix1 r) = ∑ q : Fin 8192, src (ix2 r q) :=
  (Ideal.multiReduction_add_single src _ h hφ hacc (ix1 r)).trans
    (Finset.sum_congr rfl fun k _ => congrArg src (lift_row h r k))

/-- The maximum over the classes, from -∞, at row r. -/
theorem rowMax_apply (src : FVec Ideal S256x8192 .f32) (h : S256x8192.Reduces [1] S256) (hφ : FKind.Formats .f32)
    (hacc : (0xFF800000#32 : BitVec 32) = FKind.maximumf.neutral .f32 hφ) (r : Fin 256) :
    multiReduction .maximumf [1] S256 src 0xFF800000#32 h hφ hacc (ix1 r)
      = Spec.rowMaxE (fun q : Fin 8192 => src (ix2 r q)) := by
  refine (Ideal.multiReduction_maximumf_single src _ h hφ hacc (ix1 r)).trans ?_
  have hf : (src ∘ h.lift (ix1 r)) = fun q : Fin 8192 => src (ix2 r q) :=
    funext fun k => congrArg src (lift_row h r k)
  unfold Spec.rowMaxE
  exact congrArg (fun f => Finset.fold max (Ideal.ofBits .f32 0xFF800000#32) f (Finset.univ : Finset (Fin 8192))) hf

/-! ## The four columns the body lays side by side -/

/-- The block's row maxima, kept as a column. -/
def colMax (x0 : FVec Ideal S256x8192 .f32) : FVec Ideal S256x1 .f32 :=
  shapeCast S256x1 (multiReduction .maximumf [1] S256 x0 0xFF800000#32 reduces_S256x8192_S256 (.inl rfl) rfl)
    shapeCasts_S256_S256x1

/-- The block less its row maxima. -/
def shifted (x0 : FVec Ideal S256x8192 .f32) : FVec Ideal S256x8192 .f32 :=
  subf x0 (broadcastTo S256x8192 (colMax x0) broadcasts_S256x1_S256x8192)

/-- The logarithm of the rows' sums of exponentials of the shifted block, as a column. -/
def colLse (x0 : FVec Ideal S256x8192 .f32) : FVec Ideal S256x1 .f32 :=
  log (shapeCast S256x1
    (multiReduction .add [1] S256 (exp (shifted x0)) 0x00000000#32 reduces_S256x8192_S256 (.inl rfl) rfl)
    shapeCasts_S256_S256x1)

/-- The rows' sums of the shifted block, as a column. -/
def colSub (x0 : FVec Ideal S256x8192 .f32) : FVec Ideal S256x1 .f32 :=
  shapeCast S256x1
    (multiReduction .add [1] S256 (shifted x0) 0x00000000#32 reduces_S256x8192_S256 (.inl rfl) rfl)
    shapeCasts_S256_S256x1

/-- The rows' sums of the shifted block masked to the class whose number is the row's label word, as a column. -/
def colTgt (x0 : FVec Ideal S256x8192 .f32) (x1 : IVec S256x1 32) : FVec Ideal S256x1 .f32 :=
  shapeCast S256x1
    (multiReduction .add [1] S256
      (select
        (cmpi .eq (iota .tc S256x8192 32 [1] iota_S256x8192_d1_w32)
          (broadcastTo S256x8192 (shapeCast S256x1 x1 shapeCasts_S256x1_S256x1) broadcasts_S256x1_S256x8192))
        (shifted x0) (broadcast S256x8192 (Scalar.ofBits .f32 0x00000000#32 : Ideal .f32)))
      0x00000000#32 reduces_S256x8192_S256 (.inl rfl) rfl)
    shapeCasts_S256_S256x1

/-- The stored block is the four columns side by side, transposed. -/
theorem pay_eq (x0 : Vec Ideal S256x8192 .f32) (x1 : Vec Ideal S256x1 .i32) :
    k0_pay1 (F := Ideal) x0 x1
      = transpose S4x256 [1, 0]
          (concatenate S256x4 1
            [⟨S256x1, colMax x0⟩, ⟨S256x1, colLse x0⟩, ⟨S256x1, colSub x0⟩, ⟨S256x1, colTgt x0 x1⟩]
            concatenates_S256x1_S256x1_S256x1_S256x1_S256x4_d1)
          transposes_S256x4_p1_0_S4x256 := rfl

/-- The column of maxima at row r is the row's maximum. -/
theorem colMax_apply (x0 : FVec Ideal S256x8192 .f32) (r : Fin 256) :
    colMax x0 (ix2 r (0 : Fin 1)) = Spec.rowMaxE (fun q : Fin 8192 => x0 (ix2 r q)) :=
  (column_apply _ _ r).trans (rowMax_apply x0 _ _ _ r)

/-- An entry of the shifted block is the entry less its row's maximum. -/
theorem shifted_apply (x0 : FVec Ideal S256x8192 .f32) (r : Fin 256) (q : Fin 8192) :
    shifted x0 (ix2 r q) = x0 (ix2 r q) - Spec.rowMaxE (fun q : Fin 8192 => x0 (ix2 r q)) := by
  show FloatOps.subf (x0 (ix2 r q)) (broadcastTo S256x8192 (colMax x0) broadcasts_S256x1_S256x8192 (ix2 r q)) = _
  rw [Ideal.subf_def, spread_apply, colMax_apply]

theorem colLse_apply (x0 : FVec Ideal S256x8192 .f32) (r : Fin 256) :
    colLse x0 (ix2 r (0 : Fin 1)) = Spec.rowLseE (fun q : Fin 8192 => x0 (ix2 r q)) := by
  unfold colLse Spec.rowLseE
  show FloatOps.log (shapeCast S256x1 _ shapeCasts_S256_S256x1 (ix2 r (0 : Fin 1))) = _
  rw [Ideal.log_def, column_apply]
  refine congrArg Ideal.log ((rowSum_apply _ _ _ _ r).trans (Finset.sum_congr rfl fun q _ => ?_))
  show FloatOps.exp (shifted x0 (ix2 r q)) = _
  rw [Ideal.exp_def, shifted_apply]

theorem colSub_apply (x0 : FVec Ideal S256x8192 .f32) (r : Fin 256) :
    colSub x0 (ix2 r (0 : Fin 1)) = Spec.rowSubE (fun q : Fin 8192 => x0 (ix2 r q)) := by
  unfold colSub Spec.rowSubE
  rw [column_apply]
  exact (rowSum_apply _ _ _ _ r).trans (Finset.sum_congr rfl fun q _ => shifted_apply x0 r q)

theorem colTgt_apply (x0 : FVec Ideal S256x8192 .f32) (x1 : IVec S256x1 32) (r : Fin 256) :
    colTgt x0 x1 (ix2 r (0 : Fin 1))
      = Spec.rowTgtE (fun q : Fin 8192 => x0 (ix2 r q)) (x1 (ix2 r (0 : Fin 1))) := by
  unfold colTgt Spec.rowTgtE
  rw [column_apply]
  refine (rowSum_apply _ _ _ _ r).trans (Finset.sum_congr rfl fun q _ => ?_)
  show Scalar.select (IntOp.cmpi .eq (iota .tc S256x8192 32 [1] iota_S256x8192_d1_w32 (ix2 r q))
      (broadcastTo S256x8192 (shapeCast S256x1 x1 shapeCasts_S256x1_S256x1) broadcasts_S256x1_S256x8192 (ix2 r q)))
    (shifted x0 (ix2 r q)) (Ideal.ofBits .f32 0x00000000#32) = _
  rw [iota_single_apply, spread_apply, shapeCast_self, shifted_apply, Ideal.ofBits_zero_f32]

/-- Entry (s, r) of the block the body stores is statistic s of row r of the logits block, against row r's label word. -/
theorem pay_apply (x0 : Vec Ideal S256x8192 .f32) (x1 : Vec Ideal S256x1 .i32) (s : Fin 4) (r : Fin 256) :
    k0_pay1 (F := Ideal) x0 x1 (ix2 s r) = Spec.rowStat s (fun q : Fin 8192 => x0 (ix2 r q)) (x1 (ix2 r (0 : Fin 1))) := by
  rw [pay_eq]
  refine (transpose_ix2_apply _ _ s r).trans ?_
  have hc := sideBySide_apply (colMax x0) (colLse x0) (colSub x0) (colTgt x0 x1)
    concatenates_S256x1_S256x1_S256x1_S256x1_S256x4_d1 r
  match s with
  | ⟨0, _⟩ => exact hc.1.trans (colMax_apply x0 r)
  | ⟨1, _⟩ => exact hc.2.1.trans (colLse_apply x0 r)
  | ⟨2, _⟩ => exact hc.2.2.1.trans (colSub_apply x0 r)
  | ⟨3, _⟩ => exact hc.2.2.2.trans (colTgt_apply x0 x1 r)

end Cert.KernelIdeal.Payload

end
-- ==== Proof.KernelRegion.lean ====
import proofs.«424245_j53609781789400_3_alg».proof.Proof.Gen.KernelIdeal.Frame
import proofs.«424245_j53609781789400_3_alg».proof.Proof.KernelPayload

open scoped BigOperators

noncomputable section

namespace Cert.KernelIdeal.Region

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## The statistics array as one function of the logits and the column of labels -/

/-- Entry (s, n) of the statistics array: statistic s of row n of the logits, against the label word of row n. -/
def G (a0 : S16384x8192.Idx → Elt Ideal .f32) (a1 : S16384x1.Idx → Elt Ideal .i32) : S4x16384.Idx → Elt Ideal .f32 :=
  fun i => Spec.rowStat (i 0) (fun q : Fin 8192 => a0 (ix2 (i 1) q)) (a1 (ix2 (i 1) (0 : Fin 1)))

theorem G_apply (a0 : S16384x8192.Idx → Elt Ideal .f32) (a1 : S16384x1.Idx → Elt Ideal .i32) (s : Fin 4) (n : Fin 16384) :
    G a0 a1 (ix2 s n) = Spec.rowStat s (fun q : Fin 8192 => a0 (ix2 n q)) (a1 (ix2 n (0 : Fin 1))) := rfl

/-- A block of 256 rows whose entries are rows 256 b … 256 b + 255 of the arrays: the block the body stores is the
    statistics array under it. -/
theorem block_stat (a0 : S16384x8192.Idx → Elt Ideal .f32) (a1 : S16384x1.Idx → Elt Ideal .i32)
    (x0 : Vec Ideal S256x8192 .f32) (x1 : Vec Ideal S256x1 .i32) (b : ℕ)
    (h0 : ∀ (r : Fin 256) (q : Fin 8192) (n : Fin 16384), n.val = b * 256 + r.val → x0 (ix2 r q) = a0 (ix2 n q))
    (h1 : ∀ (r : Fin 256) (n : Fin 16384), n.val = b * 256 + r.val → x1 (ix2 r (0 : Fin 1)) = a1 (ix2 n (0 : Fin 1)))
    (j : S4x256.Idx) (i : S4x16384.Idx) (hi0 : (i 0).val = (j 0).val) (hi1 : (i 1).val = b * 256 + (j 1).val) :
    k0_pay1 (F := Ideal) x0 x1 j = G a0 a1 i := by
  obtain ⟨s, r, rfl⟩ : ∃ (s : Fin 4) (r : Fin 256), j = ix2 s r := ⟨j 0, j 1, eq_ix2 j⟩
  obtain ⟨s', n, rfl⟩ : ∃ (s' : Fin 4) (n : Fin 16384), i = ix2 s' n := ⟨i 0, i 1, eq_ix2 i⟩
  have hs : s' = s := Fin.ext hi0
  subst hs
  have hn : n.val = b * 256 + r.val := hi1
  rw [Payload.pay_apply, G_apply, h1 r n hn]
  exact congrArg (fun f => Spec.rowStat s' f (a1 (ix2 n (0 : Fin 1)))) (funext fun q => h0 r q n hn)

/-! ## What the region finds in its two input arrays -/

/-- A vector of 16384 words reshaped to a column reads, at (n, 0), word n. -/
theorem labelColumn_apply {α : Type} (v : S16384.Idx → α) (h : S16384.ShapeCasts S16384x1) (n : Fin 16384) :
    shapeCast S16384x1 v h (ix2 n (0 : Fin 1)) = v (ix1 n) :=
  shapeCast_apply v h _ _ (by
    rw [Shape.rowMajor_val_one, Shape.rowMajor_val_two]
    show n.val = n.val * 1 + 0
    omega)

/-- The column of labels the region stages is the host's reshape of the labels. -/
theorem V_labels (c : Dev nD) :
    (V m c main_v0 : S16384x1.Idx → Elt Ideal .i32)
      = shapeCast S16384x1 (m ((c.tc : Thread nD τ).loc main_arg1) : S16384.Idx → Elt Ideal .i32) shapeCasts_S16384_S16384x1 := by
  show StableHlo.after hostOps0 (fun b => m (c, b)) (Proc.devRef .tc main_v0) = _
  after_results
  rfl

/-! ## The windows' index maps -/

theorem hz : (![0, 0] : Fin 2 → Nat) = fun _ => 0 := funext fun a => by fin_cases a <;> rfl

/-- Point t stages rows 256 t … of the logits and of the labels, and writes columns 256 t … of the statistics. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-! ## What a point writes back, and the array after the region -/

/-- Point t writes back block t of the statistics of the arrays as the region finds them. -/
theorem flushed_eq (c : Dev nD) (t : Fin cfg0.N) :
    (dats m 0 c).flushed 2 t
      = ((cfg0.win 2).blk t).view.read (Elt Ideal) (G (V m c main_arg0) (V m c main_v0)) := by
  show (cfg0.win 2).cut (grid0.coords t) ((dats m 0 c).after 2 t) = _
  rw [after0_2]
  unfold out0_2
  rw [View.canon_unit_zero hz]
  simp only [View.ld_unit_zero (S := S256x8192) hz, View.ld_unit_zero (S := S256x1) hz]
  obtain ⟨e00, e01, e10, e11, e20, e21⟩ := idx_facts t
  funext j
  show k0_pay1 (F := Ideal) (iblk m c 0 t) (iblk m c 1 t) j
    = G (V m c main_arg0) (V m c main_v0) (((cfg0.win 2).blk t).view.emb j)
  refine block_stat (V m c main_arg0) (V m c main_v0) (iblk m c 0 t) (iblk m c 1 t) t.val ?_ ?_ j _ ?_ ?_
  · intro r q n hn
    show V m c main_arg0 (((cfg0.win 0).blk t).view.emb (ix2 r q)) = V m c main_arg0 (ix2 n q)
    refine congrArg (V m c main_arg0) (funext fun a => Fin.ext ?_)
    match a with
    | ⟨0, _⟩ => show win0_0.index t (0 : Fin 2) * 256 + 1 * r.val = n.val; omega
    | ⟨1, _⟩ => show win0_0.index t (1 : Fin 2) * 8192 + 1 * q.val = q.val; omega
  · intro r n hn
    show V m c main_v0 (((cfg0.win 1).blk t).view.emb (ix2 r (0 : Fin 1))) = V m c main_v0 (ix2 n (0 : Fin 1))
    refine congrArg (V m c main_v0) (funext fun a => Fin.ext ?_)
    match a with
    | ⟨0, _⟩ => show win0_1.index t (0 : Fin 2) * 256 + 1 * r.val = n.val; omega
    | ⟨1, _⟩ => show win0_1.index t (1 : Fin 2) * 1 + 1 * 0 = 0; omega
  · show win0_2.index t (0 : Fin 2) * 4 + 1 * (j 0).val = (j 0).val; omega
  · show win0_2.index t (1 : Fin 2) * 256 + 1 * (j 1).val = t.val * 256 + (j 1).val; omega

/-- An index of the statistics array is in point t's block iff each coordinate is in the block's range on its axis. -/
theorem mem_blk (t : Fin cfg0.N) (i : S4x16384.Idx) :
    i ∈ ((cfg0.win 2).blk t).view.set
      ↔ ∀ a : Fin 2, win0_2.index t a * S4x256.size a ≤ (i a).val
          ∧ (i a).val < win0_2.index t a * S4x256.size a + S4x256.size a := by
  show i ∈ ((View.whole main_v1).slice (win0_2.rect t)).set ↔ _
  rw [View.set_slice_whole, Rect.mem_set_unit]
  exact Iff.rfl

/-- Column n of the statistics array is in the block of point n / 256. -/
theorem cover (i : S4x16384.Idx) :
    ∃ t : Fin cfg0.N, (cfg0.win 2).flush t = true ∧ i ∈ ((cfg0.win 2).blk t).view.set := by
  have hN : cfg0.N = 64 := N_0
  have hi0 : (i 0).val < 4 := (i 0).isLt
  have hi1 : (i 1).val < 16384 := (i 1).isLt
  let t : Fin cfg0.N := ⟨(i 1).val / 256, by rw [hN]; omega⟩
  have htv : t.val = (i 1).val / 256 := rfl
  obtain ⟨-, -, -, -, e20, e21⟩ := idx_facts t
  refine ⟨t, flush0_2 t, ?_⟩
  rw [mem_blk]
  intro a
  match a with
  | ⟨0, _⟩ =>
    show win0_2.index t (0 : Fin 2) * 4 ≤ (i 0).val ∧ (i 0).val < win0_2.index t (0 : Fin 2) * 4 + 4
    omega
  | ⟨1, _⟩ =>
    show win0_2.index t (1 : Fin 2) * 256 ≤ (i 1).val ∧ (i 1).val < win0_2.index t (1 : Fin 2) * 256 + 256
    omega

/-- After the region, entry (s, n) of the statistics array is statistic s of row n of the logits, against label n. -/
theorem stats_final (c : Dev nD) (s : Fin 4) (n : Fin 16384) :
    (dats m 0 c).arrAt 2 cfg0.N (ix2 s n)
      = Spec.rowStat s (fun q : Fin 8192 => m ((c.tc : Thread nD τ).loc main_arg0) (ix2 n q))
          (m ((c.tc : Thread nD τ).loc main_arg1) (ix1 n)) := by
  have hfin : (dats m 0 c).arrAt 2 cfg0.N = G (V m c main_arg0) (V m c main_v0) :=
    (dats m 0 c).arrAt_eq_of_cover 2 (G (V m c main_arg0) (V m c main_v0)) (fun t _ => flushed_eq m c t) cover
  refine (congrFun hfin (ix2 s n)).trans ?_
  rw [G_apply, V_main_arg0, V_labels, labelColumn_apply]

end Cert.KernelIdeal.Region

end
-- ==== Proof.LibSumIdx.lean ====
/-
  A sum over the index set of an array of rank 1, 3 or 4 is the nested sum over its coordinates.

  The index set of a shape [n0, …, nk] is in bijection with the product of the coordinate ranges Fin n0 × … × Fin nk
  (an index is the tuple of its coordinates), so a sum over it in any commutative monoid is the iterated sum, one
  coordinate at a time, outermost axis first. The library states this for rank 2; these are the other ranks, in the same form.
-/
import Idealize.ShloMosaic.Lib.ValueIdx

open scoped BigOperators

namespace Idealize.ShloMosaic.ValueIdx

/-- A rank-1 index set is its coordinate range. -/
def idxEquiv1 {n0 : Nat} : (⟨1, ![n0]⟩ : Shape).Idx ≃ Fin n0 where
  toFun i := i 0
  invFun a := ix1 a
  left_inv i := (eq_ix1 i).symm
  right_inv _ := rfl

/-- A sum over a rank-1 index set is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx
-- ==== Proof.KernelTailFn.lean ====
/-
  The host operations after the region, as one function of the statistics array, the label words and the class weights,
  and its value.

  From the [4, 16384] array of per-row statistics (row 1: the log-sum-exp lse n; row 2: the sum sub n of the shifted
  logits; row 3: the label's shifted logit tgt n; row 0, the maximum, is not read again) the program computes
    the average confidence  mc = (0 + the sum over the rows of exp (-(lse n))) / 16384,
    the smoothing  sm = 0.1f · (1 - mc),   conf = 1 - sm,   off = sm / 8191,
    the loss of row n  = (-off) · (sub n - 8192 · lse n) - (conf - off) · (tgt n - lse n),
    the result  (0 + the sum over the rows of (loss of row n) · (class weight of row n's label)) / 16384.
  When the statistics are those of a table of real logits every quantity up to the loss of a row is a real number, and the
  operations on extended reals are the real ones: the exponential of a real, a quotient by a real that is not zero, sums,
  products and differences of reals. Only the class weights stay arbitrary extended reals.
-/
import Idealize.ShloMosaic.Lib.IdealHost
import Idealize.ShloMosaic.Lib.ValueLayout
import proofs.«424245_j53609781789400_3_alg».proof.Proof.Gen.KernelIdeal
import proofs.«424245_j53609781789400_3_alg».proof.Proof.Spec
import proofs.«424245_j53609781789400_3_alg».proof.Proof.LibSumIdx

open scoped BigOperators

noncomputable section

namespace Cert.KernelIdeal.Tail

open Idealize.ShloMosaic Idealize.ShloMosaic.ValueIdx Cert.KernelIdeal Cert.KernelIdeal.Gen

/-! ## The operations, composed -/

/-- Row 1 of the statistics array: the rows' log-sum-exps. -/
def lseV (out : FVec Ideal S4x16384 .f32) : FVec Ideal S16384 .f32 :=
  shapeCast S16384 (extractStridedSlice S1x16384 ![1, 0] out slices_S4x16384_S1x16384_1_0) shapeCasts_S1x16384_S16384
/-- Row 2: the rows' sums of shifted logits. -/
def subV (out : FVec Ideal S4x16384 .f32) : FVec Ideal S16384 .f32 :=
  shapeCast S16384 (extractStridedSlice S1x16384 ![2, 0] out slices_S4x16384_S1x16384_2_0) shapeCasts_S1x16384_S16384
/-- Row 3: the labels' shifted logits. -/
def tgtV (out : FVec Ideal S4x16384 .f32) : FVec Ideal S16384 .f32 :=
  shapeCast S16384 (extractStridedSlice S1x16384 ![3, 0] out slices_S4x16384_S1x16384_3_0) shapeCasts_S1x16384_S16384

/-- The average confidence: the mean over the rows of exp (-(lse n)). -/
def meanConfV (lse : FVec Ideal S16384 .f32) : FVec Ideal S_ .f32 :=
  Host.divf (F := Ideal)
    (Host.reduceAdd (F := Ideal) (Host.exp (F := Ideal) (Host.negf (F := Ideal) lse))
      (constant (F := Ideal) S_ .f32 0x00000000#32) reducesTo_S16384_S_d0 h_S_)
    (constant (F := Ideal) S_ .f32 0x46800000#32)
/-- The smoothing: 0.1f · (1 - average confidence). -/
def smV (lse : FVec Ideal S16384 .f32) : FVec Ideal S_ .f32 :=
  mulf (F := Ideal) (constant (F := Ideal) S_ .f32 0x3DCCCCCD#32)
    (subf (F := Ideal) (constant (F := Ideal) S_ .f32 0x3F800000#32) (meanConfV lse))
/-- The label's weight: 1 - smoothing. -/
def confV (lse : FVec Ideal S16384 .f32) : FVec Ideal S_ .f32 :=
  subf (F := Ideal) (constant (F := Ideal) S_ .f32 0x3F800000#32) (smV lse)
/-- Every other class's weight: smoothing / 8191. -/
def offV (lse : FVec Ideal S16384 .f32) : FVec Ideal S_ .f32 :=
  Host.divf (F := Ideal) (smV lse) (constant (F := Ideal) S_ .f32 0x45FFF800#32)
/-- The rows' losses. -/
def lossV (lse sub tgt : FVec Ideal S16384 .f32) : FVec Ideal S16384 .f32 :=
  subf (F := Ideal)
    (mulf (F := Ideal) (broadcastInDim S16384 ![] bcast_S_S16384 (Host.negf (F := Ideal) (offV lse)))
      (subf (F := Ideal) sub
        (mulf (F := Ideal) (broadcastInDim S16384 ![] bcast_S_S16384 (constant (F := Ideal) S_ .f32 0x46000000#32)) lse)))
    (mulf (F := Ideal) (broadcastInDim S16384 ![] bcast_S_S16384 (subf (F := Ideal) (confV lse) (offV lse)))
      (subf (F := Ideal) tgt lse))
/-- The class weight of each row's label: the weights gathered at the labels, each label first wrapped the numpy way. -/
def labelW (tg : IVec S16384 32) (cw : FVec Ideal S8192 .f32) : FVec Ideal S16384 .f32 :=
  Host.gather gather_S8192_S16384x1_S16384_n_0_n_n_0_1_1 cw
    (broadcastInDim S16384x1 ![0] bcast_S16384_S16384x1_0
      (select (cmpi .slt tg (broadcastInDim S16384 ![] bcast_S_S16384 (constantI S_ 32 0#32)))
        (addi tg (broadcastInDim S16384 ![] bcast_S_S16384 (constantI S_ 32 8192#32))) tg))
/-- The result: the mean over the rows of loss · class weight. -/
def tailFn (out : FVec Ideal S4x16384 .f32) (tg : IVec S16384 32) (cw : FVec Ideal S8192 .f32) : FVec Ideal S_ .f32 :=
  Host.divf (F := Ideal)
    (Host.reduceAdd (F := Ideal) (mulf (F := Ideal) (lossV (lseV out) (subV out) (tgtV out)) (labelW tg cw))
      (constant (F := Ideal) S_ .f32 0x00000000#32) reducesTo_S16384_S_d0 h_S_)
    (constant (F := Ideal) S_ .f32 0x46800000#32)

/-! ## The statistics rows at a row number -/

/-- Row k of the array, cut out as a [1, 16384] slice and read as a vector, holds at n the array's entry (k, n). -/
theorem statRow_apply (out : FVec Ideal S4x16384 .f32) (k : Fin 4) (h : S4x16384.Slices ![k.val, 0] S1x16384) (n : Fin 16384) :
    shapeCast S16384 (extractStridedSlice S1x16384 ![k.val, 0] out h) shapeCasts_S1x16384_S16384 (ix1 n) = out (ix2 k n) := by
  refine (shapeCast_1a_a_apply _ _ n).trans ?_
  exact extractStridedSlice_apply ![k.val, 0] out h (ix2 (0 : Fin 1) n) (ix2 k n) (by
    intro a; fin_cases a <;> simp [ix2])

theorem lseV_apply (out : FVec Ideal S4x16384 .f32) (n : Fin 16384) : lseV out (ix1 n) = out (ix2 (1 : Fin 4) n) :=
  statRow_apply out 1 slices_S4x16384_S1x16384_1_0 n
theorem subV_apply (out : FVec Ideal S4x16384 .f32) (n : Fin 16384) : subV out (ix1 n) = out (ix2 (2 : Fin 4) n) :=
  statRow_apply out 2 slices_S4x16384_S1x16384_2_0 n
theorem tgtV_apply (out : FVec Ideal S4x16384 .f32) (n : Fin 16384) : tgtV out (ix1 n) = out (ix2 (3 : Fin 4) n) :=
  statRow_apply out 3 slices_S4x16384_S1x16384_3_0 n

/-- The gathered class weight of row n is the weight of row n's label. -/
theorem labelW_apply (tg : IVec S16384 32) (cw : FVec Ideal S8192 .f32) (t : Fin 16384 → Fin 8192)
    (ht : ∀ n, tg (ix1 n) = BitVec.ofNat 32 (t n).val) (n : Fin 16384) : labelW tg cw (ix1 n) = cw (ix1 (t n)) :=
  Spec.gather_label gather_S8192_S16384x1_S16384_n_0_n_n_0_1_1 rfl rfl rfl rfl bcast_S_S16384 bcast_S16384_S16384x1_0
    cw tg t ht n

/-! ## The scalars and the rows' losses, when the statistics are real -/

section Reals

variable (p : Fin 16384 → Fin 8192 → ℝ) (t : Fin 16384 → Fin 8192) (lse sub tgt : FVec Ideal S16384 .f32)

/-- The average confidence. -/
theorem meanConfV_coe (hl : ∀ n, lse (ix1 n) = ((Spec.lse p n : ℝ) : EReal)) (j : S_.Idx) :
    meanConfV lse j = ((Spec.meanConf p : ℝ) : EReal) := by
  unfold meanConfV Spec.meanConf
  rw [hostDivf_apply, hostReduceAdd_apply, Ideal.hostReduceAdd_total _ (fun b => b.elim0), sum_idx1]
  show Ideal.div (Ideal.ofBits .f32 0x00000000#32 + ∑ n : Fin 16384, Ideal.exp (-(lse (ix1 n))))
    (Ideal.ofBits .f32 0x46800000#32) = _
  rw [Ideal.ofBits_zero_f32, Consts.ofBits_16384, zero_add,
    Finset.sum_congr rfl (fun n _ => show Ideal.exp (-(lse (ix1 n))) = ((Real.exp (-(Spec.lse p n)) : ℝ) : EReal) by
      rw [hl n, ← EReal.coe_neg, Ideal.exp_coe]),
    RowMath.coe_sum, RowMath.div_coe_coe _ (by norm_num)]

/-- The smoothing. -/
theorem smV_coe (hl : ∀ n, lse (ix1 n) = ((Spec.lse p n : ℝ) : EReal)) (j : S_.Idx) :
    smV lse j = ((Spec.sm p : ℝ) : EReal) := by
  show Ideal.ofBits .f32 0x3DCCCCCD#32 * (Ideal.ofBits .f32 0x3F800000#32 - meanConfV lse j) = _
  rw [meanConfV_coe p lse hl j, Consts.ofBits_tenth, Consts.ofBits_one, ← EReal.coe_sub, ← EReal.coe_mul]
  rfl

/-- The label's weight. -/
theorem confV_coe (hl : ∀ n, lse (ix1 n) = ((Spec.lse p n : ℝ) : EReal)) (j : S_.Idx) :
    confV lse j = ((Spec.conf p : ℝ) : EReal) := by
  show Ideal.ofBits .f32 0x3F800000#32 - smV lse j = _
  rw [smV_coe p lse hl j, Consts.ofBits_one, ← EReal.coe_sub]
  rfl

/-- Every other class's weight. -/
theorem offV_coe (hl : ∀ n, lse (ix1 n) = ((Spec.lse p n : ℝ) : EReal)) (j : S_.Idx) :
    offV lse j = ((Spec.off p : ℝ) : EReal) := by
  show Ideal.div (smV lse j) (Ideal.ofBits .f32 0x45FFF800#32) = _
  rw [smV_coe p lse hl j, Consts.ofBits_8191, RowMath.div_coe_coe _ (by norm_num)]
  rfl

/-- The loss of row n. -/
theorem lossV_coe (hl : ∀ n, lse (ix1 n) = ((Spec.lse p n : ℝ) : EReal))
    (hs : ∀ n, sub (ix1 n) = ((Spec.sub p n : ℝ) : EReal)) (hg : ∀ n, tgt (ix1 n) = ((Spec.tgt p t n : ℝ) : EReal))
    (n : Fin 16384) : lossV lse sub tgt (ix1 n) = ((Spec.L p t n : ℝ) : EReal) := by
  unfold lossV
  show broadcastInDim S16384 ![] bcast_S_S16384 (Host.negf (F := Ideal) (offV lse)) (ix1 n)
        * (sub (ix1 n)
            - broadcastInDim S16384 ![] bcast_S_S16384 (constant (F := Ideal) S_ .f32 0x46000000#32) (ix1 n) * lse (ix1 n))
      - broadcastInDim S16384 ![] bcast_S_S16384 (subf (F := Ideal) (confV lse) (offV lse)) (ix1 n)
        * (tgt (ix1 n) - lse (ix1 n)) = _
  rw [broadcastInDim_scalar_apply, broadcastInDim_scalar_apply, broadcastInDim_scalar_apply]
  show (-(offV lse ix0)) * (sub (ix1 n) - Ideal.ofBits .f32 0x46000000#32 * lse (ix1 n))
      - (confV lse ix0 - offV lse ix0) * (tgt (ix1 n) - lse (ix1 n)) = _
  rw [offV_coe p lse hl ix0, confV_coe p lse hl ix0, hl n, hs n, hg n, Consts.ofBits_8192]
  simp only [← EReal.coe_neg, ← EReal.coe_mul, ← EReal.coe_sub]
  rfl

end Reals

/-! ## The value -/

/-- On the statistics of a table of real logits with class-number labels the composed operations give the batch's result. -/
theorem tailFn_value (out : FVec Ideal S4x16384 .f32) (pred : (⟨2, ![16384, 8192]⟩ : Shape).Idx → EReal) (tg : IVec S16384 32)
    (cw : FVec Ideal S8192 .f32) (p : Fin 16384 → Fin 8192 → ℝ) (t : Fin 16384 → Fin 8192) (hin : Spec.Inputs pred tg p t)
    (hout : ∀ (s : Fin 4) (n : Fin 16384),
      out (ix2 s n) = Spec.rowStat s (fun q : Fin 8192 => pred (ix2 n q)) (tg (ix1 n))) :
    tailFn out tg cw = fun _ => Spec.total p t cw := by
  have hl : ∀ n, lseV out (ix1 n) = ((Spec.lse p n : ℝ) : EReal) := fun n => by
    rw [lseV_apply, hout 1 n, Spec.rowStat_one]
    exact Spec.rowLseE_coe _ (p n) (fun c => hin.hp n c)
  have hs : ∀ n, subV out (ix1 n) = ((Spec.sub p n : ℝ) : EReal) := fun n => by
    rw [subV_apply, hout 2 n, Spec.rowStat_two]
    exact Spec.rowSubE_coe _ (p n) (fun c => hin.hp n c)
  have hg : ∀ n, tgtV out (ix1 n) = ((Spec.tgt p t n : ℝ) : EReal) := fun n => by
    rw [tgtV_apply, hout 3 n, Spec.rowStat_three, hin.ht n]
    exact Spec.rowTgtE_coe _ (p n) (fun c => hin.hp n c) (t n)
  funext j
  unfold tailFn Spec.total
  rw [hostDivf_apply, hostReduceAdd_apply, Ideal.hostReduceAdd_total _ (fun b => b.elim0), sum_idx1]
  show Ideal.div (Ideal.ofBits .f32 0x00000000#32
      + ∑ n : Fin 16384, lossV (lseV out) (subV out) (tgtV out) (ix1 n) * labelW tg cw (ix1 n))
    (Ideal.ofBits .f32 0x46800000#32) = _
  rw [Ideal.ofBits_zero_f32, Consts.ofBits_16384,
    Finset.sum_congr rfl (fun n _ => show lossV (lseV out) (subV out) (tgtV out) (ix1 n) * labelW tg cw (ix1 n)
        = ((Spec.L p t n : ℝ) : EReal) * cw (ix1 (t n)) by
      rw [lossV_coe p t _ _ _ hl hs hg n, labelW_apply tg cw t hin.ht n])]

end Cert.KernelIdeal.Tail

end
-- ==== Proof.KernelTail.lean ====
/-
  The host operations after the region: from the statistics array to the batch's result.

  Whatever the buffers hold when the region ends, the forty-eight operations after it leave in the result buffer one
  composed function (Tail.tailFn) of three buffers: the statistics array, the label words and the class weights. Of these
  the region leaves the statistics array at its final contents and the two arguments as launched; on the statistics of a
  table of real logits the composed function has the batch's result as its value.
-/
import proofs.«424245_j53609781789400_3_alg».proof.Proof.Gen.KernelIdeal.Frame
import proofs.«424245_j53609781789400_3_alg».proof.Proof.Spec
import proofs.«424245_j53609781789400_3_alg».proof.Proof.KernelTailFn

open scoped BigOperators

noncomputable section

namespace Cert.KernelIdeal.Tail

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- From any contents of the buffers, the operations after the region leave in the result buffer the composed function of
    the statistics array, the label words and the class weights as they were found. -/
theorem after_tailFn (W : Valuation τ sig (Elt Ideal)) :
    StableHlo.after (hostOps1 (F := Ideal)) W (Proc.devRef .tc main_v38)
      = tailFn (W (Proc.devRef .tc main_v1)) (W (Proc.devRef .tc main_arg1)) (W (Proc.devRef .tc main_arg2)) := by
  after_results_simp
  rfl

/-- After the region the statistics array is the pipeline's third array at its final contents, and the labels and the
    class weights, which are no array of the pipeline and which no earlier operation writes, are as launched. -/
theorem tail_struct (c : Dev nD) :
    Pipeline.afterTail₀ cfgs (dats m) 0 (V0 m) [hostOps1] c main_v38
      = tailFn ((dats m 0 c).arrAt 2 cfg0.N) (m ((c.tc : Thread nD τ).loc main_arg1))
          (m ((c.tc : Thread nD τ).loc main_arg2)) := by
  unfold Pipeline.afterTail₀
  show StableHlo.after hostOps1 _ (Proc.devRef .tc main_v38) = _
  rw [after_tailFn]
  refine congr (congr (congrArg tailFn ?_) ?_) ?_
  · exact Pipeline.withArrays_arr spec0 launch0.win.arr_inj c _ _ 2
  · exact (Pipeline.withArrays_of_ne _ c (V0 m c) _ main_arg1
      (by exact (by decide : ∀ w, Pipeline.arrRef spec0 w ≠ main_arg1))).trans (V_main_arg1 m c)
  · exact (Pipeline.withArrays_of_ne _ c (V0 m c) _ main_arg2
      (by exact (by decide : ∀ w, Pipeline.arrRef spec0 w ≠ main_arg2))).trans (V_main_arg2 m c)

/-- The host operations after the region turn the statistics array into the batch's result. -/
theorem tail_value (c : Dev nD) (p : Fin 16384 → Fin 8192 → ℝ) (t : Fin 16384 → Fin 8192)
    (hin : Spec.Inputs (m ((c.tc : Thread nD τ).loc main_arg0)) (m ((c.tc : Thread nD τ).loc main_arg1)) p t)
    (hout : ∀ (s : Fin 4) (n : Fin 16384), (dats m 0 c).arrAt 2 cfg0.N (ix2 s n)
      = Spec.rowStat s (fun q : Fin 8192 => m ((c.tc : Thread nD τ).loc main_arg0) (ix2 n q))
          (m ((c.tc : Thread nD τ).loc main_arg1) (ix1 n))) :
    Pipeline.afterTail₀ cfgs (dats m) 0 (V0 m) [hostOps1] c main_v38
      = fun _ => Spec.total p t (m ((c.tc : Thread nD τ).loc main_arg2)) := by
  rw [tail_struct m c]
  exact tailFn_value _ (m ((c.tc : Thread nD τ).loc main_arg0)) _ _ p t hin hout

end Cert.KernelIdeal.Tail

end
-- ==== Proof.KernelRun.lean ====
/-
  The kernel program's run, with its result named: on inputs that hold reals and class numbers, every execution ends
  with the result buffer at the batch's weighted mean loss (Spec.total) and the three argument arrays as they were.
  The region leaves the four per-row statistics in the [4, 16384] array (Region.stats_final); the host operations after
  it turn that array into the result (Tail.tail_value).
-/
import proofs.«424245_j53609781789400_3_alg».proof.Proof.Gen.KernelIdeal.Frame
import proofs.«424245_j53609781789400_3_alg».proof.Proof.KernelRegion
import proofs.«424245_j53609781789400_3_alg».proof.Proof.KernelTail

noncomputable section

namespace Cert.KernelIdeal.KRun

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

theorem run (p : Dev nD → Fin 16384 → Fin 8192 → ℝ) (t : Dev nD → Fin 16384 → Fin 8192)
    (hin : ∀ c : Dev nD, Spec.Inputs (m ((c.tc : Thread nD τ).loc main_arg0)) (m ((c.tc : Thread nD τ).loc main_arg1)) (p c) (t c)) :
    θ_run defs (onTc (τ := τ) (main (F := Ideal))) ⟨m, fun _ => 0, ρ⟩ (fun r => ∀ c : Dev nD,
      r.2.mem ((c.tc : Thread nD τ).loc main_v38) = (fun _ => Spec.total (p c) (t c) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v38 (Pipeline.mem_restRefs_of main_v38 (by decide) (by decide))).trans
        (Tail.tail_value m c (p c) (t c) (hin c) (Region.stats_final m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.RefRunP.lean ====
/-
  The reference program's run, stated over its stages.

  The reference is a straight line of 82 host operations. Its run leaves every buffer at the fold of the operations'
  results over the launch contents; what the result buffer then holds is a computation. The line is cut into four
  stretches — the adaptive smoothing scalars; the log-soft-max (a called function, inlined); the target distribution's
  ingredients up to the two index columns; and from their concatenation to the end — and each stretch is evaluated over
  an arbitrary valuation of the buffers: the buffers it writes end at their stage (the function val_<buffer> of the
  arguments), given that the buffers it reads hold theirs, and the buffers it does not write are kept. Chaining the four
  gives the result buffer at the last stage, val_main_v48, of the three argument arrays.
-/
import proofs.«424245_j53609781789400_3_alg».proof.Proof.RefRunOps
import proofs.«424245_j53609781789400_3_alg».proof.Proof.RefReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- Running two stretches one after the other is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first stretch: from the row maxima to the smoothing and the confidence. -/
abbrev opsA : List (HloOp τ sig (Elt F)) :=
  [ nullary main_cst (constant S_ .f32 0xFF800000#32),
    binary main_arg0 main_cst main_v0 ((fun x v => Host.reduce FloatOps.maximumf x v reducesTo_S16384x8192_S16384_d1 h_S_) : (⟨S16384x8192, .f32⟩ : BufTy).Contents (Elt F) → (⟨S_, .f32⟩ : BufTy).Contents (Elt F) → (⟨S16384, .f32⟩ : BufTy).Contents (Elt F)),
    nullary main_cst_0 (constant S_ .f32 0xFF800000#32),
    unary main_cst_0 main_v1 (broadcastInDim S16384 ![] bcast_S_S16384 : (⟨S_, .f32⟩ : BufTy).Contents (Elt F) → (⟨S16384, .f32⟩ : BufTy).Contents (Elt F)),
    binary main_v1 main_v0 main_v2 (maximumf : (⟨S16384, .f32⟩ : BufTy).Contents (Elt F) → (⟨S16384, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_v3 main_v4 (broadcastInDim S16384x8192 ![0, 1] bcast_S16384x1_S16384x8192_0_1 : (⟨S16384x1, .f32⟩ : BufTy).Contents (Elt F) → (⟨S16384x8192, .f32⟩ : BufTy).Contents (Elt F)),
    binary main_arg0 main_v4 main_v5 (subf : (⟨S16384x8192, .f32⟩ : BufTy).Contents (Elt F) → (⟨S16384x8192, .f32⟩ : BufTy).Contents (Elt F) → (⟨S16384x8192, .f32⟩ : BufTy).Contents (Elt F)),
    unary main_v5 main_v6 (Host.exp : (⟨S16384x8192, .f32⟩ : BufTy).Contents (Elt F) → (⟨S16384x8192, .f32⟩ : BufTy).Contents (Elt F)),
    nullary main_cst_1 (constant S_ .f32 0x00000000#32),
    binary main_v6 main_cst_1 main_v7 ((fun x v => Host.reduceAdd x v reducesTo_S16384x8192_S16384_d1 h_S_) : (⟨S16384x8192, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x8192 ![0, 1] bcast_S16384x1_S16384x8192_0_1 : (⟨S16384x1, .f32⟩ : BufTy).Contents (Elt F) → (⟨S16384x8192, .f32⟩ : BufTy).Contents (Elt F)),
    binary main_v6 main_v9 main_v10 (Host.divf : (⟨S16384x8192, .f32⟩ : BufTy).Contents (Elt F) → (⟨S16384x8192, .f32⟩ : BufTy).Contents (Elt F) → (⟨S16384x8192, .f32⟩ : BufTy).Contents (Elt F)),
    nullary main_cst_2 (constant S_ .f32 0xFF800000#32),
    binary main_v10 main_cst_2 main_v11 ((fun x v => Host.reduce FloatOps.maximumf x v reducesTo_S16384x8192_S16384_d1 h_S_) : (⟨S16384x8192, .f32⟩ : BufTy).Contents (Elt F) → (⟨S_, .f32⟩ : BufTy).Contents (Elt F) → (⟨S16384, .f32⟩ : BufTy).Contents (Elt F)),
    nullary main_cst_3 (constant S_ .f32 0x00000000#32),
    binary main_v11 main_cst_3 main_v12 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x46800000#32),
    binary main_v12 main_cst_4 main_v13 (Host.divf : (⟨S_, .f32⟩ : BufTy).Contents (Elt F) → (⟨S_, .f32⟩ : BufTy).Contents (Elt F) → (⟨S_, .f32⟩ : BufTy).Contents (Elt F)),
    nullary main_cst_5 (constant S_ .f32 0x3F800000#32),
    binary main_cst_5 main_v13 main_v14 (subf : (⟨S_, .f32⟩ : BufTy).Contents (Elt F) → (⟨S_, .f32⟩ : BufTy).Contents (Elt F) → (⟨S_, .f32⟩ : BufTy).Contents (Elt F)),
    nullary main_cst_6 (constant S_ .f32 0x3DCCCCCD#32),
    binary main_cst_6 main_v14 main_v15 (mulf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v15 main_v16 (subf : (⟨S_, .f32⟩ : BufTy).Contents (Elt F) → (⟨S_, .f32⟩ : BufTy).Contents (Elt F) → (⟨S_, .f32⟩ : BufTy).Contents (Elt F)) ]

/-- The second stretch: the log-soft-max. -/
abbrev opsB : List (HloOp τ sig (Elt F)) :=
  [ TRef.nullary (TRef.of (T := ⟨S_, .f32⟩) main_call0_cst) (constant S_ .f32 0xFF800000#32),
    TRef.binary (TRef.of (T := ⟨S16384x8192, .f32⟩) main_arg0) (TRef.of (T := ⟨S_, .f32⟩) main_call0_cst) (TRef.of (T := ⟨S16384, .f32⟩) main_call0_v0) (fun x v => Host.reduce FloatOps.maximumf x v reducesTo_S16384x8192_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x8192, .f32⟩) main_call0_v4) (broadcastInDim S16384x8192 ![0, 1] bcast_S16384x1_S16384x8192_0_1),
    TRef.binary (TRef.of (T := ⟨S16384x8192, .f32⟩) main_arg0) (TRef.of (T := ⟨S16384x8192, .f32⟩) main_call0_v4) (TRef.of (T := ⟨S16384x8192, .f32⟩) main_call0_v5) subf,
    TRef.unary (TRef.of (T := ⟨S16384x8192, .f32⟩) main_call0_v5) (TRef.of (T := ⟨S16384x8192, .f32⟩) main_call0_v6) Host.exp,
    TRef.nullary (TRef.of (T := ⟨S_, .f32⟩) main_call0_cst_1) (constant S_ .f32 0x00000000#32),
    TRef.binary (TRef.of (T := ⟨S16384x8192, .f32⟩) main_call0_v6) (TRef.of (T := ⟨S_, .f32⟩) main_call0_cst_1) (TRef.of (T := ⟨S16384, .f32⟩) main_call0_v7) (fun x v => Host.reduceAdd x v reducesTo_S16384x8192_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x8192, .f32⟩) main_call0_v10) (broadcastInDim S16384x8192 ![0, 1] bcast_S16384x1_S16384x8192_0_1),
    TRef.binary (TRef.of (T := ⟨S16384x8192, .f32⟩) main_call0_v5) (TRef.of (T := ⟨S16384x8192, .f32⟩) main_call0_v10) (TRef.of (T := ⟨S16384x8192, .f32⟩) main_v17) subf ]

/-- The third stretch: the off-target weight and the two columns of scatter indices. -/
abbrev opsC : List (HloOp τ sig (Elt F)) :=
  [ nullary main_cst_8 (constant S_ .f32 0x45FFF800#32),
    binary main_v15 main_cst_8 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S16384x8192 ![] bcast_S_S16384x8192 : (⟨S_, .f32⟩ : BufTy).Contents (Elt F) → (⟨S16384x8192, .f32⟩ : BufTy).Contents (Elt F)),
    nullary main_v20 (iotaInDim S16384 32 0),
    nullary main_c (constantI S_ 32 0#32),
    unary main_c main_v21 (broadcastInDim S16384 ![] bcast_S_S16384 : (⟨S_, .i32⟩ : BufTy).Contents (Elt F) → (⟨S16384, .i32⟩ : BufTy).Contents (Elt F)),
    binary main_v20 main_v21 main_v22 (cmpi .slt : (⟨S16384, .i32⟩ : BufTy).Contents (Elt F) → (⟨S16384, .i32⟩ : BufTy).Contents (Elt F) → (⟨S16384, .i1⟩ : BufTy).Contents (Elt F)),
    nullary main_c_9 (constantI S_ 32 16384#32),
    unary main_c_9 main_v23 (broadcastInDim S16384 ![] bcast_S_S16384 : (⟨S_, .i32⟩ : BufTy).Contents (Elt F) → (⟨S16384, .i32⟩ : BufTy).Contents (Elt F)),
    binary main_v20 main_v23 main_v24 (addi : (⟨S16384, .i32⟩ : BufTy).Contents (Elt F) → (⟨S16384, .i32⟩ : BufTy).Contents (Elt F) → (⟨S16384, .i32⟩ : BufTy).Contents (Elt F)),
    ternary main_v22 main_v24 main_v20 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_10 (constantI S_ 32 0#32),
    unary main_c_10 main_v26 (broadcastInDim S16384 ![] bcast_S_S16384 : (⟨S_, .i32⟩ : BufTy).Contents (Elt F) → (⟨S16384, .i32⟩ : BufTy).Contents (Elt F)),
    binary main_arg1 main_v26 main_v27 (cmpi .slt : (⟨S16384, .i32⟩ : BufTy).Contents (Elt F) → (⟨S16384, .i32⟩ : BufTy).Contents (Elt F) → (⟨S16384, .i1⟩ : BufTy).Contents (Elt F)),
    nullary main_c_11 (constantI S_ 32 8192#32),
    unary main_c_11 main_v28 (broadcastInDim S16384 ![] bcast_S_S16384 : (⟨S_, .i32⟩ : BufTy).Contents (Elt F) → (⟨S16384, .i32⟩ : BufTy).Contents (Elt F)),
    binary main_arg1 main_v28 main_v29 (addi : (⟨S16384, .i32⟩ : BufTy).Contents (Elt F) → (⟨S16384, .i32⟩ : BufTy).Contents (Elt F) → (⟨S16384, .i32⟩ : BufTy).Contents (Elt F)),
    ternary main_v27 main_v29 main_arg1 main_v30 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v25 main_v31 (broadcastInDim S16384x1 ![0] bcast_S16384_S16384x1_0 : (⟨S16384, .i32⟩ : BufTy).Contents (Elt F) → (⟨S16384x1, .i32⟩ : BufTy).Contents (Elt F)),
    unary main_v30 main_v32 (broadcastInDim S16384x1 ![0] bcast_S16384_S16384x1_0 : (⟨S16384, .i32⟩ : BufTy).Contents (Elt F) → (⟨S16384x1, .i32⟩ : BufTy).Contents (Elt F)) ]

/-- The fourth stretch: the target distribution, the rows' losses, the weighted mean. -/
abbrev opsD : List (HloOp τ sig (Elt F)) :=
  [ binary main_v31 main_v32 main_v33 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    unary main_v16 main_v34 (broadcastInDim S16384 ![] bcast_S_S16384 : (⟨S_, .f32⟩ : BufTy).Contents (Elt F) → (⟨S16384, .f32⟩ : BufTy).Contents (Elt F)),
    ternary main_v19 main_v33 main_v34 main_v35 ((fun x i u => Host.scatter scatter_S16384x8192_S16384x2_S16384_n_01_01_1 (fun _ b => b) x i u) : (⟨S16384x8192, .f32⟩ : BufTy).Contents (Elt F) → (⟨S16384x2, .i32⟩ : BufTy).Contents (Elt F) → (⟨S16384, .f32⟩ : BufTy).Contents (Elt F) → (⟨S16384x8192, .f32⟩ : BufTy).Contents (Elt F)),
    unary main_v35 main_v36 (Host.negf : (⟨S16384x8192, .f32⟩ : BufTy).Contents (Elt F) → (⟨S16384x8192, .f32⟩ : BufTy).Contents (Elt F)),
    binary main_v36 main_v17 main_v37 (mulf : (⟨S16384x8192, .f32⟩ : BufTy).Contents (Elt F) → (⟨S16384x8192, .f32⟩ : BufTy).Contents (Elt F) → (⟨S16384x8192, .f32⟩ : BufTy).Contents (Elt F)),
    nullary main_cst_12 (constant S_ .f32 0x00000000#32),
    binary main_v37 main_cst_12 main_v38 ((fun x v => Host.reduceAdd x v reducesTo_S16384x8192_S16384_d1 h_S_) : (⟨S16384x8192, .f32⟩ : BufTy).Contents (Elt F) → (⟨S_, .f32⟩ : BufTy).Contents (Elt F) → (⟨S16384, .f32⟩ : BufTy).Contents (Elt F)),
    nullary main_c_13 (constantI S_ 32 0#32),
    unary main_c_13 main_v39 (broadcastInDim S16384 ![] bcast_S_S16384 : (⟨S_, .i32⟩ : BufTy).Contents (Elt F) → (⟨S16384, .i32⟩ : BufTy).Contents (Elt F)),
    binary main_arg1 main_v39 main_v40 (cmpi .slt : (⟨S16384, .i32⟩ : BufTy).Contents (Elt F) → (⟨S16384, .i32⟩ : BufTy).Contents (Elt F) → (⟨S16384, .i1⟩ : BufTy).Contents (Elt F)),
    nullary main_c_14 (constantI S_ 32 8192#32),
    unary main_c_14 main_v41 (broadcastInDim S16384 ![] bcast_S_S16384 : (⟨S_, .i32⟩ : BufTy).Contents (Elt F) → (⟨S16384, .i32⟩ : BufTy).Contents (Elt F)),
    binary main_arg1 main_v41 main_v42 (addi : (⟨S16384, .i32⟩ : BufTy).Contents (Elt F) → (⟨S16384, .i32⟩ : BufTy).Contents (Elt F) → (⟨S16384, .i32⟩ : BufTy).Contents (Elt F)),
    ternary main_v40 main_v42 main_arg1 main_v43 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v43 main_v44 (broadcastInDim S16384x1 ![0] bcast_S16384_S16384x1_0 : (⟨S16384, .i32⟩ : BufTy).Contents (Elt F) → (⟨S16384x1, .i32⟩ : BufTy).Contents (Elt F)),
    binary main_arg2 main_v44 main_v45 ((fun x i => Host.gather gather_S8192_S16384x1_S16384_n_0_n_n_0_1_1 x i) : (⟨S8192, .f32⟩ : BufTy).Contents (Elt F) → (⟨S16384x1, .i32⟩ : BufTy).Contents (Elt F) → (⟨S16384, .f32⟩ : BufTy).Contents (Elt F)),
    binary main_v38 main_v45 main_v46 (mulf : (⟨S16384, .f32⟩ : BufTy).Contents (Elt F) → (⟨S16384, .f32⟩ : BufTy).Contents (Elt F) → (⟨S16384, .f32⟩ : BufTy).Contents (Elt F)),
    nullary main_cst_15 (constant S_ .f32 0x00000000#32),
    binary main_v46 main_cst_15 main_v47 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_16 (constant S_ .f32 0x46800000#32),
    binary main_v47 main_cst_16 main_v48 (Host.divf : (⟨S_, .f32⟩ : BufTy).Contents (Elt F) → (⟨S_, .f32⟩ : BufTy).Contents (Elt F) → (⟨S_, .f32⟩ : BufTy).Contents (Elt F)) ]

set_option maxRecDepth 8192 in
/-- The line is its four stretches. -/
theorem ops_split : (ops : List (HloOp τ sig (Elt F))) = opsA ++ (opsB ++ (opsC ++ opsD)) := rfl

variable (W : Valuation τ sig (Elt F))

/-! ## The first stretch -/

theorem A_v15 : after opsA W (Proc.devRef .tc main_v15) = ReadP.val_main_v15 (F := F) (W (Proc.devRef .tc main_arg0)) := by
  after_results_simp <;> rfl
theorem A_v16 : after opsA W (Proc.devRef .tc main_v16) = ReadP.val_main_v16 (F := F) (W (Proc.devRef .tc main_arg0)) := by
  after_results_simp <;> rfl
theorem A_arg0 : after opsA W (Proc.devRef .tc main_arg0) = W (Proc.devRef .tc main_arg0) := by
  after_results_simp <;> rfl
theorem A_arg1 : after opsA W (Proc.devRef .tc main_arg1) = W (Proc.devRef .tc main_arg1) := by
  after_results_simp <;> rfl
theorem A_arg2 : after opsA W (Proc.devRef .tc main_arg2) = W (Proc.devRef .tc main_arg2) := by
  after_results_simp <;> rfl

/-! ## The second stretch -/

/-- Contents moved to a buffer's own type and back are the contents. -/
theorem ofBuf_toBuf {T : BufTy} (x : TRef sig T) (v : T.Contents (Elt F)) : x.ofBuf (x.toBuf v) = v := by
  obtain ⟨r, h, hd, hs⟩ := x
  subst h
  rfl

/-- At the result buffer of the log-soft-max the move is the identity. -/
theorem toBuf_v17 (y : (⟨S16384x8192, .f32⟩ : BufTy).Contents (Elt F)) :
    (TRef.of (T := ⟨S16384x8192, .f32⟩) main_v17).toBuf y = y := rfl

/-- At the logits' buffer the move is the identity. -/
theorem ofBuf_arg0 (x : (TRef.of (sig := sig) (T := ⟨S16384x8192, .f32⟩) main_arg0).ref.ty.Contents (Elt F)) :
    (TRef.of (T := ⟨S16384x8192, .f32⟩) main_arg0).ofBuf x = x := rfl

theorem B_v17 : after opsB W (Proc.devRef .tc main_v17) = ReadP.val_main_v17 (F := F) (W (Proc.devRef .tc main_arg0)) := by
  after_results_simp
  simp only [ofBuf_toBuf]
  rw [toBuf_v17]
  simp only [ofBuf_arg0]
  rfl
theorem B_v15 : after opsB W (Proc.devRef .tc main_v15) = W (Proc.devRef .tc main_v15) := by
  after_results_simp <;> rfl
theorem B_v16 : after opsB W (Proc.devRef .tc main_v16) = W (Proc.devRef .tc main_v16) := by
  after_results_simp <;> rfl
theorem B_arg1 : after opsB W (Proc.devRef .tc main_arg1) = W (Proc.devRef .tc main_arg1) := by
  after_results_simp <;> rfl
theorem B_arg2 : after opsB W (Proc.devRef .tc main_arg2) = W (Proc.devRef .tc main_arg2) := by
  after_results_simp <;> rfl

/-! ## The third stretch -/

theorem C_v19 (x0 : (⟨S16384x8192, .f32⟩ : BufTy).Contents (Elt F))
    (h15 : W (Proc.devRef .tc main_v15) = ReadP.val_main_v15 (F := F) x0) :
    after opsC W (Proc.devRef .tc main_v19) = ReadP.val_main_v19 (F := F) x0 := by
  after_results_simp
  rw [h15]
  rfl
theorem C_v31 : after opsC W (Proc.devRef .tc main_v31) = ReadP.val_main_v31 (F := F) := by
  after_results_simp <;> rfl
theorem C_v32 : after opsC W (Proc.devRef .tc main_v32) = ReadP.val_main_v32 (F := F) (W (Proc.devRef .tc main_arg1)) := by
  after_results_simp <;> rfl
theorem C_v16 : after opsC W (Proc.devRef .tc main_v16) = W (Proc.devRef .tc main_v16) := by
  after_results_simp <;> rfl
theorem C_v17 : after opsC W (Proc.devRef .tc main_v17) = W (Proc.devRef .tc main_v17) := by
  after_results_simp <;> rfl
theorem C_arg1 : after opsC W (Proc.devRef .tc main_arg1) = W (Proc.devRef .tc main_arg1) := by
  after_results_simp <;> rfl
theorem C_arg2 : after opsC W (Proc.devRef .tc main_arg2) = W (Proc.devRef .tc main_arg2) := by
  after_results_simp <;> rfl

/-! ## The fourth stretch -/

theorem D_v48 (x0 : (⟨S16384x8192, .f32⟩ : BufTy).Contents (Elt F))
    (h31 : W (Proc.devRef .tc main_v31) = ReadP.val_main_v31 (F := F))
    (h32 : W (Proc.devRef .tc main_v32) = ReadP.val_main_v32 (F := F) (W (Proc.devRef .tc main_arg1)))
    (h16 : W (Proc.devRef .tc main_v16) = ReadP.val_main_v16 (F := F) x0)
    (h19 : W (Proc.devRef .tc main_v19) = ReadP.val_main_v19 (F := F) x0)
    (h17 : W (Proc.devRef .tc main_v17) = ReadP.val_main_v17 (F := F) x0) :
    after opsD W (Proc.devRef .tc main_v48)
      = ReadP.val_main_v48 (F := F) x0 (W (Proc.devRef .tc main_arg1)) (W (Proc.devRef .tc main_arg2)) := by
  after_results_simp
  rw [h31, h32, h16, h19, h17]
  rfl

/-! ## The whole line -/

/-- After the whole line the result buffer holds the last stage of the three argument arrays. -/
theorem result_eq (V : Valuation τ sig (Elt F)) :
    after ops V (Proc.devRef .tc main_v48)
      = ReadP.val_main_v48 (F := F) (V (Proc.devRef .tc main_arg0)) (V (Proc.devRef .tc main_arg1)) (V (Proc.devRef .tc main_arg2)) := by
  rw [ops_split, after_append, after_append, after_append]
  have a15 := A_v15 V
  have a16 := A_v16 V
  have a0 := A_arg0 V
  have a1 := A_arg1 V
  have a2 := A_arg2 V
  generalize after opsA V = W1 at a15 a16 a0 a1 a2 ⊢
  have b17 := B_v17 W1
  have b15 := B_v15 W1
  have b16 := B_v16 W1
  have b1 := B_arg1 W1
  have b2 := B_arg2 W1
  rw [a0] at b17
  rw [a15] at b15
  rw [a16] at b16
  rw [a1] at b1
  rw [a2] at b2
  generalize after opsB W1 = W2 at b17 b15 b16 b1 b2 ⊢
  have c19 := C_v19 W2 (V (Proc.devRef .tc main_arg0)) b15
  have c31 := C_v31 W2
  have c32 := C_v32 W2
  have c16 := C_v16 W2
  have c17 := C_v17 W2
  have c1 := C_arg1 W2
  have c2 := C_arg2 W2
  rw [b1] at c32 c1
  rw [b16] at c16
  rw [b17] at c17
  rw [b2] at c2
  generalize after opsC W2 = W3 at c19 c31 c32 c16 c17 c1 c2 ⊢
  rw [D_v48 W3 (V (Proc.devRef .tc main_arg0)) c31 (by rw [c1]; exact c32) c16 c19 c17, c1, c2]

/-- No operation of the line writes an argument array. -/
theorem kept_arg0 (V : Valuation τ sig (Elt F)) : after ops V (Proc.devRef .tc main_arg0) = V (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes,
      StableHlo.ternary_writes, Finset.mem_singleton]
    repeat' apply And.intro
    all_goals exact StableHlo.devRef_ne_of_ne (by decide)))
theorem kept_arg1 (V : Valuation τ sig (Elt F)) : after ops V (Proc.devRef .tc main_arg1) = V (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes,
      StableHlo.ternary_writes, Finset.mem_singleton]
    repeat' apply And.intro
    all_goals exact StableHlo.devRef_ne_of_ne (by decide)))
theorem kept_arg2 (V : Valuation τ sig (Elt F)) : after ops V (Proc.devRef .tc main_arg2) = V (Proc.devRef .tc main_arg2) :=
  StableHlo.after_of_forall_not_mem (b := Proc.devRef .tc main_arg2) _ _ (List.forall_iff_forall_mem.mp (by
    simp only [ops, List.Forall, StableHlo.nullary_writes, StableHlo.unary_writes, StableHlo.binary_writes,
      StableHlo.ternary_writes, Finset.mem_singleton]
    repeat' apply And.intro
    all_goals exact StableHlo.devRef_ne_of_ne (by decide)))

/-- On every device, from any memory with zero counters: every weakly fair execution of the reference terminates with
    the result buffer at the last stage of the argument arrays' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = ReadP.val_main_v48 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v48).trans (result_eq (launchContents m c)),
        (h c main_arg0).trans (kept_arg0 (launchContents m c)),
        (h c main_arg1).trans (kept_arg1 (launchContents m c)),
        (h c main_arg2).trans (kept_arg2 (launchContents m c))⟩)
    (run_seq scopedRefs_eq scopedSems_eq defs main (fun _ => ops) main_eq (fun _ => ops_sub) m ρ)

end Cert.ReferenceIdeal.RunP

end
-- ==== Proof.LibScatter.lean ====
/-
  A host scatter read at one index.

  `Host.scatter d f x idx upd` is the left fold, over the update indices in row-major order, of the step
  "where update `j` lands inside the operand at `i`, replace the element at `i` by `f` of it and the update".
  Three consequences, for any element type and any dimension numbers:
  * an index on which no update lands keeps the operand's element;
  * an index on which exactly one update lands holds `f` of the operand's element and that update
    (the order of the other updates does not matter: they never touch this index);
  * when every update writes one constant `c` over what is there (`f := fun _ b => b`), each element of the
    result is the operand's or `c`.
-/
import Idealize.ShloMosaic.PureOps.ShapeOps

namespace Idealize.ShloMosaic.ScatterRead

variable {α : Type} {s si u : Shape} {w : Nat}

/-- One step of the fold: update number `n` (in row-major order) applied to the running result `r`. -/
private def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of `step` over all update numbers. -/
private theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `p` leaves the element at `p` alone. -/
private theorem step_apply_of_ne (d : ScatterDims s si u) (f : α → α → α) (idx : IVec si w) (upd : u.Idx → α)
    (r : s.Idx → α) (n : Fin u.numel) (p : s.Idx) (h : d.resultIdx? (u.rowMajor.symm n) idx ≠ some p) :
    step d f idx upd r n p = r p := by
  unfold step
  generalize d.resultIdx? (u.rowMajor.symm n) idx = q at h
  cases q with
  | none => rfl
  | some i =>
    have hne : p ≠ i := fun e => h (by rw [e])
    exact if_neg hne

/-- A step whose update lands on `p` replaces the element at `p` by `f` of it and the update. -/
private theorem step_apply_of_eq (d : ScatterDims s si u) (f : α → α → α) (idx : IVec si w) (upd : u.Idx → α)
    (r : s.Idx → α) (n : Fin u.numel) (p : s.Idx) (h : d.resultIdx? (u.rowMajor.symm n) idx = some p) :
    step d f idx upd r n p = f (r p) (upd (u.rowMajor.symm n)) := by
  unfold step
  rw [h]
  exact if_pos rfl

/-- Folding over a list none of whose updates lands on `p` leaves the element at `p` alone. -/
private theorem foldl_apply_of_miss (d : ScatterDims s si u) (f : α → α → α) (idx : IVec si w) (upd : u.Idx → α)
    (p : s.Idx) (l : List (Fin u.numel)) (r : s.Idx → α)
    (h : ∀ n ∈ l, d.resultIdx? (u.rowMajor.symm n) idx ≠ some p) :
    l.foldl (step d f idx upd) r p = r p := by
  induction l generalizing r with
  | nil => rfl
  | cons a t ih =>
    rw [List.foldl_cons, ih _ (fun n hn => h n (List.mem_cons_of_mem _ hn))]
    exact step_apply_of_ne d f idx upd r a p (h a List.mem_cons_self)

/-- Folding over a list without repetition in which exactly one update, number `n0`, lands on `p`:
    the element at `p` is `f` of the starting element and that update. -/
private theorem foldl_apply_of_unique (d : ScatterDims s si u) (f : α → α → α) (idx : IVec si w) (upd : u.Idx → α)
    (p : s.Idx) (n0 : Fin u.numel) (l : List (Fin u.numel)) (r : s.Idx → α)
    (hnd : l.Nodup) (hmem : n0 ∈ l) (h0 : d.resultIdx? (u.rowMajor.symm n0) idx = some p)
    (huniq : ∀ n ∈ l, d.resultIdx? (u.rowMajor.symm n) idx = some p → n = n0) :
    l.foldl (step d f idx upd) r p = f (r p) (upd (u.rowMajor.symm n0)) := by
  induction l generalizing r with
  | nil => exact absurd hmem List.not_mem_nil
  | cons a t ih =>
    rw [List.foldl_cons]
    have hnd' := List.nodup_cons.mp hnd
    by_cases ha : a = n0
    · -- the head is the one update that lands on `p`; nothing in the tail does
      subst ha
      rw [foldl_apply_of_miss d f idx upd p t _ (fun n hn hland => by
        have := huniq n (List.mem_cons_of_mem _ hn) hland
        exact hnd'.1 (this ▸ hn))]
      exact step_apply_of_eq d f idx upd r a p h0
    · -- the head does not land on `p`; the one update that does is in the tail
      have hmem' : n0 ∈ t := by
        rcases List.mem_cons.mp hmem with e | e
        · exact absurd e.symm ha
        · exact e
      rw [ih _ hnd'.2 hmem' (fun n hn => huniq n (List.mem_cons_of_mem _ hn))]
      rw [step_apply_of_ne d f idx upd r a p (fun hland => ha (huniq a List.mem_cons_self hland))]

/-- When every update writes the constant `c`, "the element at `p` is the operand's or `c`" is kept by the fold. -/
private theorem foldl_set_const_apply (d : ScatterDims s si u) (idx : IVec si w) (c : α) (x : s.Idx → α)
    (p : s.Idx) (l : List (Fin u.numel)) (r : s.Idx → α) (hr : r p = x p ∨ r p = c) :
    l.foldl (step d (fun _ b => b) idx (fun _ => c)) r p = x p ∨
      l.foldl (step d (fun _ b => b) idx (fun _ => c)) r p = c := by
  induction l generalizing r with
  | nil => exact hr
  | cons a t ih =>
    rw [List.foldl_cons]
    apply ih
    by_cases hland : d.resultIdx? (u.rowMajor.symm a) idx = some p
    · right
      exact step_apply_of_eq d (fun _ b => b) idx (fun _ => c) r a p hland
    · rw [step_apply_of_ne d (fun _ b => b) idx (fun _ => c) r a p hland]
      exact hr

/-- An index no update lands on keeps the operand's element. -/
theorem scatter_apply_of_miss (d : ScatterDims s si u) (f : α → α → α) (x : s.Idx → α) (idx : IVec si w) (upd : u.Idx → α)
    (p : s.Idx) (h : ∀ j : u.Idx, d.resultIdx? j idx ≠ some p) :
    Host.scatter d f x idx upd p = x p := by
  rw [scatter_eq_foldl]
  exact foldl_apply_of_miss d f idx upd p _ x (fun n _ => h (u.rowMajor.symm n))

/-- An index exactly one update lands on holds `f` of the operand's element and that update. -/
theorem scatter_apply_of_unique (d : ScatterDims s si u) (f : α → α → α) (x : s.Idx → α) (idx : IVec si w) (upd : u.Idx → α)
    (p : s.Idx) (j : u.Idx) (hj : d.resultIdx? j idx = some p) (huniq : ∀ j' : u.Idx, d.resultIdx? j' idx = some p → j' = j) :
    Host.scatter d f x idx upd p = f (x p) (upd j) := by
  rw [scatter_eq_foldl]
  have e : u.rowMajor.symm (u.rowMajor j) = j := Equiv.symm_apply_apply _ _
  have := foldl_apply_of_unique d f idx upd p (u.rowMajor j) (List.finRange u.numel) x
    (List.nodup_finRange _) (List.mem_finRange _) (by rw [e]; exact hj)
    (fun n _ hland => by
      have hn := huniq _ hland
      rw [← hn, Equiv.apply_symm_apply])
  rw [this, e]

/-- Updates that all write one constant leave each element at the operand's or at the constant. -/
theorem scatter_set_const_apply (d : ScatterDims s si u) (x : s.Idx → α) (idx : IVec si w) (c : α) (p : s.Idx) :
    Host.scatter d (fun _ b => b) x idx (fun _ => c) p = x p ∨ Host.scatter d (fun _ b => b) x idx (fun _ => c) p = c := by
  rw [scatter_eq_foldl]
  exact foldl_set_const_apply d idx c x p _ x (Or.inl rfl)

end Idealize.ShloMosaic.ScatterRead
-- ==== Proof.LibPairIndex.lean ====
/-
  jnp's pair indexing `x[arange(n), lab]` over an [n × C] array, as StableHLO prints it, read at an index.

  The start-index table is the [n × 2] array whose row `p` is (`p`, `lab p`), each component first passed through
  numpy's wrap of a negative index (`select (i < 0) (i + extent) i`): `pairTable`. On a table whose row `p` names an
  element (`p`, `col p`) INSIDE the array,
  * the gather with both operand axes collapsed and start-indexed reads that element (`gather_pair_apply`: the
    clamp of an in-range start is the start);
  * the scatter-add with both operand axes inserted adds update `p` to that element and to no other: row `p` of
    the result is row `p` of the operand with `upd p` added at column `col p` (`scatterAdd_pair_apply`: the rows
    are distinct, so an element meets at most its own row's update).
-/
import Idealize.ShloMosaic.Lib.ValueIdx
import Idealize.ShloMosaic.Lib.StableHlo.Predicate
import Idealize.ShloMosaic.PureOps.Ideal
import Idealize.ShloMosaic.PureOps.Ideal.Laws
import Idealize.ShloMosaic.Lib.Pipeline.Value

noncomputable section

namespace Cert.LibPairIndex

open Idealize.ShloMosaic Idealize.ShloMosaic.ValueIdx

variable {n : Nat}

/-- The start indices jnp builds for `x[arange(n), lab]`: column 0 the row numbers, column 1 the labels, each
    wrapped the numpy way (`Nw`, `Cw` are the two extents as 32-bit words). -/
def pairTable (Nw Cw : BitVec 32)
    (hb : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hc : Shape.Concatenates [(⟨2, ![n, 1]⟩ : Shape), ⟨2, ![n, 1]⟩] ⟨2, ![n, 2]⟩ 1)
    (lab : IVec ⟨1, ![n]⟩ 32) : IVec ⟨2, ![n, 2]⟩ 32 :=
  concatenate ⟨2, ![n, 2]⟩ 1
    [⟨⟨2, ![n, 1]⟩, broadcastInDim ⟨2, ![n, 1]⟩ ![0] hb1
        (select (cmpi .slt (iotaInDim ⟨1, ![n]⟩ 32 0) (broadcastInDim ⟨1, ![n]⟩ ![] hb (constantI ⟨0, ![]⟩ 32 0#32)))
          (addi (iotaInDim ⟨1, ![n]⟩ 32 0) (broadcastInDim ⟨1, ![n]⟩ ![] hb (constantI ⟨0, ![]⟩ 32 Nw)))
          (iotaInDim ⟨1, ![n]⟩ 32 0))⟩,
     ⟨⟨2, ![n, 1]⟩, broadcastInDim ⟨2, ![n, 1]⟩ ![0] hb1
        (select (cmpi .slt lab (broadcastInDim ⟨1, ![n]⟩ ![] hb (constantI ⟨0, ![]⟩ 32 0#32)))
          (addi lab (broadcastInDim ⟨1, ![n]⟩ ![] hb (constantI ⟨0, ![]⟩ 32 Cw)))
          lab)⟩] hc

variable (Nw Cw : BitVec 32)
  (hb : (⟨0, ![]⟩ : Shape).BroadcastsInDim ⟨1, ![n]⟩ (![] : Fin 0 → Fin 1))
  (hb1 : (⟨1, ![n]⟩ : Shape).BroadcastsInDim ⟨2, ![n, 1]⟩ (![0] : Fin 1 → Fin 2))
  (hc : Shape.Concatenates [(⟨2, ![n, 1]⟩ : Shape), ⟨2, ![n, 1]⟩] ⟨2, ![n, 2]⟩ 1)
  (lab : IVec ⟨1, ![n]⟩ 32)

/-- Piece 0 of the table: the index (`p`, 0) lies in the first [n × 1] column. -/
private theorem pair_left {α : Type} (x₁ x₂ : (⟨2, ![n, 1]⟩ : Shape).Idx → α)
    (hc : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, x₁⟩, ⟨⟨2, ![n, 1]⟩, x₂⟩] hc (ix2 p (0 : Fin 2)) = x₁ (ix2 p (0 : Fin 1)) := by
  refine concatenate_pair_apply_left (1 : Fin 2) x₁ x₂ hc (ix2 p (0 : Fin 2)) rfl (ix2 p (0 : Fin 1)) ?_
  intro b
  match b with
  | ⟨0, _⟩ => rfl
  | ⟨1, _⟩ => rfl

/-- Piece 1 of the table: the index (`p`, 1) lies in the second [n × 1] column, at its one position. -/
private theorem pair_right {α : Type} (x₁ x₂ : (⟨2, ![n, 1]⟩ : Shape).Idx → α)
    (hc : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, x₁⟩, ⟨⟨2, ![n, 1]⟩, x₂⟩] hc (ix2 p (1 : Fin 2)) = x₂ (ix2 p (0 : Fin 1)) := by
  refine concatenate_pair_apply_right (1 : Fin 2) x₁ x₂ hc (ix2 p (1 : Fin 2)) rfl rfl (ix2 p (0 : Fin 1)) ?_ ?_
  · intro b hb
    match b, hb with
    | ⟨0, _⟩, _ => rfl
    | ⟨1, _⟩, hb => exact absurd rfl hb
  · rfl

/-- A vector kept as an [n × 1] column reads, at (`p`, 0), the vector at `p`. -/
private theorem col_apply {α : Type} (hb1 : (⟨1, ![n]⟩ : Shape).BroadcastsInDim ⟨2, ![n, 1]⟩ (![0] : Fin 1 → Fin 2))
    (v : (⟨1, ![n]⟩ : Shape).Idx → α) (p : Fin n) :
    broadcastInDim ⟨2, ![n, 1]⟩ ![0] hb1 v (ix2 p (0 : Fin 1)) = v (ix1 p) := by
  refine broadcastInDim_apply _ hb1 v _ (ix1 p) ?_
  intro a
  match a with
  | ⟨0, _⟩ =>
    have hp := p.isLt
    show p.val = if n = 1 then 0 else p.val
    split
    · omega
    · rfl

/-- The numpy wrap of a word that is not negative is the word. -/
private theorem wrap_nonneg (x e : BitVec 32) (hx : 0 ≤ x.toInt) :
    Scalar.select (IntOp.cmpi .slt x 0#32) (IntOp.addi x e) x = x := by
  have h : IntOp.cmpi .slt x 0#32 = 0#1 := by
    apply eq_zero_of_ne_one
    intro h1
    have : x.slt 0#32 = true := by
      simpa [IntOp.cmpi, StableHlo.Predicate.ofBool_eq_one_iff] using h1
    simp only [BitVec.slt, decide_eq_true_eq] at this
    have h0 : (0#32 : BitVec 32).toInt = 0 := by decide
    omega
  rw [h, select_zero]

/-- Column 0 of the table at row `p` is the row number (a row number below 2³¹ is not negative, so it is not wrapped). -/
theorem pairTable_row (hn : n < 2 ^ 31) (p : Fin n) :
    (pairTable Nw Cw hb hb1 hc lab (ix2 p (0 : Fin 2))).toInt = (p.val : Int) := by
  have hp := p.isLt
  unfold pairTable
  rw [pair_left, col_apply]
  show (Scalar.select (IntOp.cmpi .slt (BitVec.ofNat 32 p.val) 0#32) (IntOp.addi (BitVec.ofNat 32 p.val) Nw)
    (BitVec.ofNat 32 p.val)).toInt = _
  have hi : (BitVec.ofNat 32 p.val).toInt = (p.val : Int) := StableHlo.Predicate.toInt_ofNat_small p.val (by omega)
  rw [wrap_nonneg _ _ (by rw [hi]; exact Int.natCast_nonneg _), hi]

/-- Column 1 at row `p` is the label itself when the label is not negative. -/
theorem pairTable_col (p : Fin n) (h0 : 0 ≤ (lab (ix1 p)).toInt) :
    pairTable Nw Cw hb hb1 hc lab (ix2 p (1 : Fin 2)) = lab (ix1 p) := by
  unfold pairTable
  rw [pair_right, col_apply]
  show Scalar.select (IntOp.cmpi .slt (lab (ix1 p)) 0#32) (IntOp.addi (lab (ix1 p)) Cw) (lab (ix1 p)) = _
  exact wrap_nonneg _ _ h0

/-- The pair gather reads, at result position `p`, the operand's element (`a`, `b`) when row `p` of the start
    indices is (`a`, `b`) and that is inside the operand. -/
theorem gather_pair_apply {α : Type} {N0 N1 w : Nat} (d : GatherDims ⟨2, ![N0, N1]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N0, N1]⟩ : Shape).Idx → α) (idx : IVec ⟨2, ![n, 2]⟩ w) (p : Fin n) (a : Fin N0) (b : Fin N1)
    (ha : (idx (ix2 p (0 : Fin 2))).toInt = (a.val : Int)) (hb' : (idx (ix2 p (1 : Fin 2))).toInt = (b.val : Int)) :
    Host.gather d x idx (ix1 p) = x (ix2 a b) := by
  -- component `c` of result position `p`'s start index is read at (`p`, `c`) of the table
  have hsi : ∀ (c : Fin 2) (hc : c ∈ d.startIndexMap),
      d.siIdx (ix1 p) ⟨d.startIndexMap.idxOf c, List.idxOf_lt_length_iff.2 hc⟩ = ix2 p c := by
    intro c hc
    funext e
    match e with
    | ⟨0, _⟩ =>
      unfold GatherDims.siIdx
      rw [dif_neg (by rw [hivd]; simp)]
      unfold GatherDims.siCoord
      apply Fin.ext
      simp only [Fin.val_cast]
      have e1 : ∀ X : Fin 1, ((ix1 p : (⟨1, ![n]⟩ : Shape).Idx) X).val = p.val := fun X => by
        have hX : X = 0 := Subsingleton.elim _ _
        subst hX; rfl
      exact e1 _
    | ⟨1, _⟩ =>
      unfold GatherDims.siIdx
      rw [dif_pos (by rw [hivd])]
      apply Fin.ext
      show List.idxOf c d.startIndexMap = c.val
      rw [hsim]
      match c with
      | ⟨0, _⟩ => rfl
      | ⟨1, _⟩ => rfl
  unfold Host.gather
  congr 1
  funext c
  apply Fin.ext
  have hbt : c ∉ d.operandBatchingDims := by rw [hob]; exact List.not_mem_nil
  have hcm : c ∈ d.collapsedSliceDims := by
    rw [hcoll]; match c with
    | ⟨0, _⟩ => simp
    | ⟨1, _⟩ => simp
  have hk : c ∉ d.sKept := by rw [GatherDims.mem_sKept]; exact fun h => h.1 hcm
  have hm : c ∈ d.startIndexMap := by
    rw [hsim]; match c with
    | ⟨0, _⟩ => simp
    | ⟨1, _⟩ => simp
  have hsl : d.sliceSizes c = 1 := d.slice_collapsed c hcm
  simp only [GatherDims.operandIdx, GatherDims.batchCoord_eq_zero _ _ _ hbt, GatherDims.offCoord_eq_zero _ _ _ hk,
    Nat.add_zero, GatherDims.start, dif_pos hm]
  rw [hsi c hm, hsl]
  match c with
  | ⟨0, _⟩ =>
    show min (idx (ix2 p (0 : Fin 2))).toInt.toNat (N0 - 1) = a.val
    rw [ha]
    have := a.isLt
    simp only [Int.toNat_natCast]
    omega
  | ⟨1, _⟩ =>
    show min (idx (ix2 p (1 : Fin 2))).toInt.toNat (N1 - 1) = b.val
    rw [hb']
    have := b.isLt
    simp only [Int.toNat_natCast]
    omega

/-- The pair scatter-add at the ideal instance: when row `p` of the scatter indices is (`p`, `col p`) for every
    `p`, element (`p`, `q`) of the result is the operand's plus update `p` if `q` is `col p`, plus nothing else. -/
theorem scatterAdd_pair_apply {φ : FTy} {N1 w : Nat} (d : ScatterDims ⟨2, ![n, N1]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (x : FVec Ideal ⟨2, ![n, N1]⟩ φ) (idx : IVec ⟨2, ![n, 2]⟩ w) (upd : FVec Ideal ⟨1, ![n]⟩ φ) (col : Fin n → Fin N1)
    (hrow : ∀ p : Fin n, (idx (ix2 p (0 : Fin 2))).toInt = (p.val : Int))
    (hcol : ∀ p : Fin n, (idx (ix2 p (1 : Fin 2))).toInt = ((col p).val : Int))
    (p : Fin n) (q : Fin N1) :
    Host.scatterAdd d x idx upd (ix2 p q) = x (ix2 p q) + (if q = col p then upd (ix1 p) else 0) := by
  classical
  -- component `c` of update `p'`'s scatter index is read at (`p'`, `c`) of the table
  have hsi : ∀ (p' : Fin n) (c : Fin 2) (hc : c ∈ d.scatterDimsToOperandDims),
      d.siIdx (ix1 p') ⟨d.scatterDimsToOperandDims.idxOf c, List.idxOf_lt_length_iff.2 hc⟩ = ix2 p' c := by
    intro p' c hc
    funext e
    match e with
    | ⟨0, _⟩ =>
      unfold ScatterDims.siIdx
      rw [dif_neg (by rw [hivd]; simp)]
      unfold ScatterDims.siCoord
      apply Fin.ext
      simp only [Fin.val_cast]
      have e1 : ∀ X : Fin 1, ((ix1 p' : (⟨1, ![n]⟩ : Shape).Idx) X).val = p'.val := fun X => by
        have hX : X = 0 := Subsingleton.elim _ _
        subst hX; rfl
      exact e1 _
    | ⟨1, _⟩ =>
      unfold ScatterDims.siIdx
      rw [dif_pos (by rw [hivd])]
      apply Fin.ext
      show List.idxOf c d.scatterDimsToOperandDims = c.val
      rw [hsd]
      match c with
      | ⟨0, _⟩ => rfl
      | ⟨1, _⟩ => rfl
  -- the start of update `p'` is (`p'`, `col p'`), and its window coordinate is 0 on both (inserted) axes
  have hstart : ∀ (p' : Fin n) (c : Fin 2), d.start (ix1 p') idx c = ((ix2 p' (col p') c).val : Int) := by
    intro p' c
    have hm : c ∈ d.scatterDimsToOperandDims := by
      rw [hsd]; match c with
      | ⟨0, _⟩ => simp
      | ⟨1, _⟩ => simp
    unfold ScatterDims.start
    rw [dif_pos hm, hsi p' c hm]
    match c with
    | ⟨0, _⟩ => exact hrow p'
    | ⟨1, _⟩ => exact hcol p'
  have hwin : ∀ (p' : Fin n) (c : Fin 2), d.window (ix1 p') c = 0 := by
    intro p' c
    have hk : c ∉ d.sKept := by
      simp only [ScatterDims.sKept, Shape.kept, List.mem_filter, List.mem_finRange, true_and, hiw, decide_not,
        Bool.not_eq_eq_eq_not, Bool.not_true, decide_eq_false_iff_not, not_not]
      match c with
      | ⟨0, _⟩ => simp
      | ⟨1, _⟩ => simp
    unfold ScatterDims.window
    rw [dif_neg hk]
  -- so update `p'` lands at (`p'`, `col p'`), inside the operand
  have hres : ∀ p' : Fin n, d.resultIdx? (ix1 p') idx = some (ix2 p' (col p')) := by
    intro p'
    have H : ∀ c : Fin 2, 0 ≤ d.start (ix1 p') idx c + d.window (ix1 p') c ∧
        d.start (ix1 p') idx c + d.window (ix1 p') c < (⟨2, ![n, N1]⟩ : Shape).size c := by
      intro c
      rw [hstart, hwin]
      have := (ix2 p' (col p') c).isLt
      constructor
      · simp
      · simp only [Nat.cast_zero, add_zero, Nat.cast_lt]; exact this
    unfold ScatterDims.resultIdx?
    rw [dif_pos H]
    congr 1
    funext c
    apply Fin.ext
    show (d.start (ix1 p') idx c + d.window (ix1 p') c).toNat = _
    rw [hstart, hwin]
    simp
  -- the updates landing on (`p`, `q`): update `p` alone when `q` is `col p`, none otherwise
  have hset : (Finset.univ.filter fun j : (⟨1, ![n]⟩ : Shape).Idx => d.resultIdx? j idx = some (ix2 p q))
      = if q = col p then {ix1 p} else ∅ := by
    ext j
    obtain ⟨p', rfl⟩ : ∃ p', j = ix1 p' := ⟨j 0, eq_ix1 j⟩
    rw [Finset.mem_filter, hres p']
    constructor
    · rintro ⟨-, h⟩
      have h' := Option.some.inj h
      have h0 : p' = p := congrFun h' (0 : Fin 2)
      have h1 : col p' = q := congrFun h' (1 : Fin 2)
      subst h0
      rw [if_pos h1.symm]
      exact Finset.mem_singleton_self _
    · intro h
      by_cases hq : q = col p
      · rw [if_pos hq, Finset.mem_singleton] at h
        have h0 : p' = p := congrFun h (0 : Fin 1)
        subst h0
        exact ⟨Finset.mem_univ _, by rw [hq]⟩
      · rw [if_neg hq] at h
        exact absurd h (Finset.notMem_empty _)
  show FloatOps.hostScatterAdd d .single x idx upd (ix2 p q) = _
  rw [Ideal.hostScatterAdd_def]
  show x (ix2 p q) + ∑ j ∈ Finset.univ.filter (fun j => d.resultIdx? j idx = some (ix2 p q)), upd j = _
  rw [hset]
  by_cases hq : q = col p
  · rw [if_pos hq, if_pos hq, Finset.sum_singleton]
  · rw [if_neg hq, if_neg hq, Finset.sum_empty]

end Cert.LibPairIndex

end
-- ==== Proof.RefValueScatter.lean ====
/-
  The reference's smoothed target, read at an index.

  The target distribution of row n is built by overwriting: an array that holds off everywhere receives, for each row n,
  the value conf at the entry (n, label of n). As printed this is a scatter whose index table has row n equal to
  (n, label of n), both operand axes start-indexed and no window left. Update n lands on (n, label of n) and nowhere
  else, and updates of different rows land in different rows; so entry (n, c) of the result is update n when c is the
  label of n, and the operand's entry otherwise.
-/
import proofs.«424245_j53609781789400_3_alg».proof.Proof.RefReadP
import proofs.«424245_j53609781789400_3_alg».proof.Proof.LibScatter
import proofs.«424245_j53609781789400_3_alg».proof.Proof.LibPairIndex

noncomputable section

namespace Cert.ReferenceIdeal.RefValue

open Idealize.ShloMosaic Idealize.ShloMosaic.ValueIdx Cert.ReferenceIdeal Cert.ReferenceIdeal.Gen

/-- A scatter that overwrites, both operand axes start-indexed by a table whose row p is (p, col p): entry (p, q) of the
    result is update p where q is col p, and the operand's entry everywhere else. Rows land in different rows, so an
    entry meets at most its own row's update. -/
theorem scatterSet_pair_apply {α : Type} {n N1 w : Nat} (d : ScatterDims ⟨2, ![n, N1]⟩ ⟨2, ![n, 2]⟩ ⟨1, ![n]⟩)
    (hiw : d.insertedWindowDims = [0, 1]) (hsd : d.scatterDimsToOperandDims = [0, 1]) (hivd : d.indexVectorDim = 1)
    (x : (⟨2, ![n, N1]⟩ : Shape).Idx → α) (idx : IVec ⟨2, ![n, 2]⟩ w) (upd : (⟨1, ![n]⟩ : Shape).Idx → α)
    (col : Fin n → Fin N1)
    (hrow : ∀ p : Fin n, (idx (ix2 p (0 : Fin 2))).toInt = (p.val : Int))
    (hcol : ∀ p : Fin n, (idx (ix2 p (1 : Fin 2))).toInt = ((col p).val : Int))
    (p : Fin n) (q : Fin N1) :
    Host.scatter d (fun _ b => b) x idx upd (ix2 p q) = if q = col p then upd (ix1 p) else x (ix2 p q) := by
  -- component c of update p' 's scatter index is read at (p', c) of the table
  have hsi : ∀ (p' : Fin n) (c : Fin 2) (hc : c ∈ d.scatterDimsToOperandDims),
      d.siIdx (ix1 p') ⟨d.scatterDimsToOperandDims.idxOf c, List.idxOf_lt_length_iff.2 hc⟩ = ix2 p' c := by
    intro p' c hc
    funext e
    match e with
    | ⟨0, _⟩ =>
      unfold ScatterDims.siIdx
      rw [dif_neg (by rw [hivd]; simp)]
      unfold ScatterDims.siCoord
      apply Fin.ext
      simp only [Fin.val_cast]
      have e1 : ∀ X : Fin 1, ((ix1 p' : (⟨1, ![n]⟩ : Shape).Idx) X).val = p'.val := fun X => by
        have hX : X = 0 := Subsingleton.elim _ _
        subst hX; rfl
      exact e1 _
    | ⟨1, _⟩ =>
      unfold ScatterDims.siIdx
      rw [dif_pos (by rw [hivd])]
      apply Fin.ext
      show List.idxOf c d.scatterDimsToOperandDims = c.val
      rw [hsd]
      match c with
      | ⟨0, _⟩ => rfl
      | ⟨1, _⟩ => rfl
  -- update p' starts at (p', col p'), and both axes being inserted its window coordinate is 0
  have hstart : ∀ (p' : Fin n) (c : Fin 2), d.start (ix1 p') idx c = ((ix2 p' (col p') c).val : Int) := by
    intro p' c
    have hm : c ∈ d.scatterDimsToOperandDims := by
      rw [hsd]; match c with
      | ⟨0, _⟩ => simp
      | ⟨1, _⟩ => simp
    unfold ScatterDims.start
    rw [dif_pos hm, hsi p' c hm]
    match c with
    | ⟨0, _⟩ => exact hrow p'
    | ⟨1, _⟩ => exact hcol p'
  have hwin : ∀ (p' : Fin n) (c : Fin 2), d.window (ix1 p') c = 0 := by
    intro p' c
    have hk : c ∉ d.sKept := by
      simp only [ScatterDims.sKept, Shape.kept, List.mem_filter, List.mem_finRange, true_and, hiw, decide_not,
        Bool.not_eq_eq_eq_not, Bool.not_true, decide_eq_false_iff_not, not_not]
      match c with
      | ⟨0, _⟩ => simp
      | ⟨1, _⟩ => simp
    unfold ScatterDims.window
    rw [dif_neg hk]
  -- so update p' lands on (p', col p'), inside the operand
  have hres : ∀ p' : Fin n, d.resultIdx? (ix1 p') idx = some (ix2 p' (col p')) := by
    intro p'
    have H : ∀ c : Fin 2, 0 ≤ d.start (ix1 p') idx c + d.window (ix1 p') c ∧
        d.start (ix1 p') idx c + d.window (ix1 p') c < (⟨2, ![n, N1]⟩ : Shape).size c := by
      intro c
      rw [hstart, hwin]
      have := (ix2 p' (col p') c).isLt
      constructor
      · simp
      · simp only [Nat.cast_zero, add_zero, Nat.cast_lt]; exact this
    unfold ScatterDims.resultIdx?
    rw [dif_pos H]
    congr 1
    funext c
    apply Fin.ext
    show (d.start (ix1 p') idx c + d.window (ix1 p') c).toNat = _
    rw [hstart, hwin]
    simp
  by_cases hq : q = col p
  · -- the only update landing on (p, col p) is update p
    rw [if_pos hq]
    refine ScatterRead.scatter_apply_of_unique d _ x idx upd (ix2 p q) (ix1 p) (by rw [hres, hq]) (fun j' hj' => ?_)
    obtain ⟨p', rfl⟩ : ∃ p', j' = ix1 p' := ⟨j' 0, eq_ix1 j'⟩
    rw [hres p'] at hj'
    have h0 : p' = p := congrFun (Option.some.inj hj') (0 : Fin 2)
    rw [h0]
  · -- no update lands on (p, q): one that did would be update p, landing on (p, col p)
    rw [if_neg hq]
    refine ScatterRead.scatter_apply_of_miss d _ x idx upd (ix2 p q) (fun j hj => ?_)
    obtain ⟨p', rfl⟩ : ∃ p', j = ix1 p' := ⟨j 0, eq_ix1 j⟩
    rw [hres p'] at hj
    have h' := Option.some.inj hj
    have h0 : p' = p := congrFun h' (0 : Fin 2)
    have h1 : col p' = q := congrFun h' (1 : Fin 2)
    subst h0
    exact hq h1.symm

/-- The table of scatter indices is the table of pair indexing: row n is (n, label of n), each wrapped. -/
theorem v33_eq (tg : IVec S16384 32) :
    ReadP.val_main_v33 (F := Ideal) tg
      = LibPairIndex.pairTable 16384#32 8192#32 bcast_S_S16384 bcast_S16384_S16384x1_0
          concatenates_S16384x1_S16384x1_S16384x2_d1 tg := rfl

theorem v33_row (tg : IVec S16384 32) (n : Fin 16384) :
    (ReadP.val_main_v33 (F := Ideal) tg (ix2 n (0 : Fin 2))).toInt = (n.val : Int) := by
  rw [v33_eq]
  exact LibPairIndex.pairTable_row _ _ _ _ _ _ (by norm_num) n

theorem v33_col (tg : IVec S16384 32) (t : Fin 16384 → Fin 8192)
    (ht : ∀ n, tg (ix1 n) = BitVec.ofNat 32 (t n).val) (n : Fin 16384) :
    (ReadP.val_main_v33 (F := Ideal) tg (ix2 n (1 : Fin 2))).toInt = ((t n).val : Int) := by
  have hk := (t n).isLt
  have hi : (tg (ix1 n)).toInt = ((t n).val : Int) := by
    rw [ht n]
    exact StableHlo.Predicate.toInt_ofNat_small (t n).val (by omega)
  rw [v33_eq, LibPairIndex.pairTable_col _ _ _ _ _ _ n (by rw [hi]; exact Int.natCast_nonneg _), hi]

end Cert.ReferenceIdeal.RefValue

end
-- ==== Proof.RefValue.lean ====
/-
  The reference program's value: its last stage is the common specification.

  Row by row, with M the row's maximum and S the sum over the classes of exp (logit - M): the reference takes the maximum
  from -∞ (and once more against -∞, which changes nothing), the exponentials of the shifted logits, their sum S, and the
  soft-max probabilities exp (logit - M) / S; the largest of these is exp (-(log S)). The mean of the rows' largest
  probabilities gives the smoothing sm = 0.1 · (1 - mean), and with it the target weights conf = 1 - sm on the label and
  off = sm / 8191 on every other class. The log-soft-max (logit - M) - log S is recomputed from the logits. The loss of
  row n is the sum over the classes of -(target weight) · (log-soft-max), which is the closed form of the specification;
  it is multiplied by the class weight of the row's label, summed over the rows and divided by the number of rows.
  Every stage is read at one index, on inputs that hold reals and class numbers.
-/
import proofs.«424245_j53609781789400_3_alg».proof.Proof.RefReadP
import proofs.«424245_j53609781789400_3_alg».proof.Proof.Spec
import proofs.«424245_j53609781789400_3_alg».proof.Proof.LibScatter
import proofs.«424245_j53609781789400_3_alg».proof.Proof.LibPairIndex
import proofs.«424245_j53609781789400_3_alg».proof.Proof.LibSumIdx
import proofs.«424245_j53609781789400_3_alg».proof.Proof.RefValueScatter

open scoped BigOperators

noncomputable section

namespace Cert.ReferenceIdeal.RefValue

open Idealize.ShloMosaic Idealize.ShloMosaic.ValueIdx Cert.ReferenceIdeal Cert.ReferenceIdeal.Gen Cert.RowMath

/-- Row n with class k put back on the reduced axis is entry (n, k). -/
theorem lift_row (h : S16384x8192.Reduces [1] S16384) (n : Fin 16384) (k : Fin (S16384x8192.size 1)) :
    h.lift (ix1 n) k = ix2 n (⟨k.val, k.isLt⟩ : Fin 8192) := by
  funext c; apply Fin.ext
  fin_cases c <;> rfl

/-- A maximum over the classes, started from -∞, read at row n. -/
theorem reduce_max_row (x : S16384x8192.Idx → EReal) (n : Fin 16384) :
    Host.reduce (FloatOps.maximumf (F := Ideal) (φ := .f32)) x (constant (F := Ideal) S_ .f32 0xFF800000#32)
      reducesTo_S16384x8192_S16384_d1 h_S_ (ix1 n) = Spec.rowMaxE (fun c => x (ix2 n c)) := by
  have h : S16384x8192.Reduces [1] S16384 := by decide
  rw [Host.reduce_eq_fold_single _ x _ reducesTo_S16384x8192_S16384_d1 h h_S_]
  unfold Spec.rowMaxE
  have hf : (x ∘ h.lift (ix1 n)) = fun k : Fin 8192 => x (ix2 n k) := funext fun k => congrArg x (lift_row h n k)
  exact congrArg (fun f => Finset.fold max (Ideal.ofBits .f32 0xFF800000#32) f (Finset.univ : Finset (Fin 8192))) hf

/-! ## Index equations: the composed index maps of the broadcasts and sums, at (n, c) -/

theorem idx_v3_v4 (n : Fin 16384) (c : Fin 8192) : ReadP.idx_main_v3 (ReadP.idx_main_v4 (ix2 n c)) = ix1 n := by
  funext a
  match a with
  | ⟨0, _⟩ => rfl

theorem idx_v7 (n : Fin 16384) (k : Fin 8192) : ReadP.idx_main_v7 (ix1 n) k = ix2 n k := by
  funext a
  match a with
  | ⟨0, _⟩ => rfl
  | ⟨1, _⟩ => rfl

theorem idx_v8_v9 (n : Fin 16384) (c : Fin 8192) : ReadP.idx_main_v8 (ReadP.idx_main_v9 (ix2 n c)) = ix1 n := by
  funext a
  match a with
  | ⟨0, _⟩ => rfl

/-! ## The soft-max of one row -/

section Rows

variable (pred : S16384x8192.Idx → EReal) (p : Fin 16384 → Fin 8192 → ℝ)
  (hp : ∀ n c, pred (ix2 n c) = ((p n c : ℝ) : EReal))
include hp

/-- The maximum of row n. -/
theorem v0_row (n : Fin 16384) :
    ReadP.val_main_v0 (F := Ideal) pred (ix1 n) = ((rmax Spec.hC (p n) : ℝ) : EReal) := by
  unfold ReadP.val_main_v0 ReadP.val_main_cst
  rw [reduce_max_row, Spec.rowMaxE_coe _ (p n) (hp n)]

/-- Taking the maximum with -∞ once more changes nothing. -/
theorem v2_row (n : Fin 16384) :
    ReadP.val_main_v2 (F := Ideal) pred (ix1 n) = ((rmax Spec.hC (p n) : ℝ) : EReal) := by
  rw [ReadP.val_main_v2_apply, ReadP.val_main_v1_apply, ReadP.val_main_cst_0_apply, v0_row pred p hp n,
    Ideal.ofBits_def, Consts.ofBits_neg_inf, Ideal.maximumf_def]
  exact max_bot_left _

theorem v4_at (n : Fin 16384) (c : Fin 8192) :
    ReadP.val_main_v4 (F := Ideal) pred (ix2 n c) = ((rmax Spec.hC (p n) : ℝ) : EReal) := by
  rw [ReadP.val_main_v4_apply, ReadP.val_main_v3_apply, idx_v3_v4, v2_row pred p hp n]

/-- The shifted logit. -/
theorem v5_at (n : Fin 16384) (c : Fin 8192) :
    ReadP.val_main_v5 (F := Ideal) pred (ix2 n c) = ((p n c - rmax Spec.hC (p n) : ℝ) : EReal) := by
  rw [ReadP.val_main_v5_apply, v4_at pred p hp n c, hp n c, Ideal.subf_def, ← EReal.coe_sub]

theorem v6_at (n : Fin 16384) (c : Fin 8192) :
    ReadP.val_main_v6 (F := Ideal) pred (ix2 n c) = ((Real.exp (p n c - rmax Spec.hC (p n)) : ℝ) : EReal) := by
  rw [ReadP.val_main_v6_apply, v5_at pred p hp n c, Ideal.hostUnary_exp_def, Ideal.exp_coe]

/-- The sum of the exponentials of row n. -/
theorem v7_row (n : Fin 16384) :
    ReadP.val_main_v7 (F := Ideal) pred (ix1 n) = ((rsum Spec.hC (p n) : ℝ) : EReal) := by
  rw [ReadP.val_main_v7_apply, ReadP.val_main_cst_1_apply, Ideal.ofBits_def, Ideal.ofBits_zero_f32, zero_add]
  unfold rsum
  rw [← coe_sum]
  refine Finset.sum_congr rfl fun k _ => ?_
  rw [idx_v7, v6_at pred p hp n k]

theorem v9_at (n : Fin 16384) (c : Fin 8192) :
    ReadP.val_main_v9 (F := Ideal) pred (ix2 n c) = ((rsum Spec.hC (p n) : ℝ) : EReal) := by
  rw [ReadP.val_main_v9_apply, ReadP.val_main_v8_apply, idx_v8_v9, v7_row pred p hp n]

/-- The soft-max probability of class c in row n. -/
theorem v10_at (n : Fin 16384) (c : Fin 8192) :
    ReadP.val_main_v10 (F := Ideal) pred (ix2 n c)
      = ((Real.exp (p n c - rmax Spec.hC (p n)) / rsum Spec.hC (p n) : ℝ) : EReal) := by
  rw [ReadP.val_main_v10_apply, v6_at pred p hp n c, v9_at pred p hp n c, Ideal.hostDivf_def,
    div_coe_coe _ (rsum_pos Spec.hC (p n)).ne']

/-- The largest soft-max probability of row n. -/
theorem v11_row (n : Fin 16384) :
    ReadP.val_main_v11 (F := Ideal) pred (ix1 n) = ((Real.exp (-(Spec.lse p n)) : ℝ) : EReal) := by
  unfold ReadP.val_main_v11 ReadP.val_main_cst_2
  rw [reduce_max_row,
    Spec.rowMaxE_coe _ (fun c => Real.exp (p n c - rmax Spec.hC (p n)) / rsum Spec.hC (p n))
      (fun c => v10_at pred p hp n c), max_softmax]
  rfl

end Rows

/-! ## The batch's smoothing constants -/

section Batch

variable (pred : S16384x8192.Idx → EReal) (p : Fin 16384 → Fin 8192 → ℝ)
  (hp : ∀ n c, pred (ix2 n c) = ((p n c : ℝ) : EReal))
include hp

/-- The sum over the rows of their largest probabilities. -/
theorem v12_val (i : S_.Idx) :
    ReadP.val_main_v12 (F := Ideal) pred i = ((∑ n, Real.exp (-(Spec.lse p n)) : ℝ) : EReal) := by
  rw [ReadP.val_main_v12_apply, ReadP.val_main_cst_3_apply, Ideal.ofBits_def, Ideal.ofBits_zero_f32, zero_add,
    sum_idx1, ← coe_sum]
  exact Finset.sum_congr rfl fun n _ => v11_row pred p hp n

/-- The average confidence. -/
theorem v13_val (i : S_.Idx) : ReadP.val_main_v13 (F := Ideal) pred i = ((Spec.meanConf p : ℝ) : EReal) := by
  rw [ReadP.val_main_v13_apply, v12_val pred p hp i, ReadP.val_main_cst_4_apply, Ideal.ofBits_def,
    Consts.ofBits_16384, Ideal.hostDivf_def, div_coe_coe _ (by norm_num : (16384 : ℝ) ≠ 0)]
  rfl

/-- The smoothing. -/
theorem v15_val (i : S_.Idx) : ReadP.val_main_v15 (F := Ideal) pred i = ((Spec.sm p : ℝ) : EReal) := by
  rw [ReadP.val_main_v15_apply, ReadP.val_main_cst_6_apply, ReadP.val_main_v14_apply, ReadP.val_main_cst_5_apply,
    v13_val pred p hp i, Ideal.ofBits_def, Ideal.ofBits_def, Consts.ofBits_tenth, Consts.ofBits_one,
    Ideal.subf_def, Ideal.mulf_def, ← EReal.coe_sub, ← EReal.coe_mul]
  rfl

/-- The weight of the label. -/
theorem v16_val (i : S_.Idx) : ReadP.val_main_v16 (F := Ideal) pred i = ((Spec.conf p : ℝ) : EReal) := by
  rw [ReadP.val_main_v16_apply, ReadP.val_main_cst_7_apply, v15_val pred p hp i, Ideal.ofBits_def,
    Consts.ofBits_one, Ideal.subf_def, ← EReal.coe_sub]
  rfl

/-- The weight of every other class. -/
theorem v18_val (i : S_.Idx) : ReadP.val_main_v18 (F := Ideal) pred i = ((Spec.off p : ℝ) : EReal) := by
  rw [ReadP.val_main_v18_apply, ReadP.val_main_cst_8_apply, v15_val pred p hp i, Ideal.ofBits_def,
    Consts.ofBits_8191, Ideal.hostDivf_def, div_coe_coe _ (by norm_num : (8191 : ℝ) ≠ 0)]
  rfl

theorem v19_at (i : S16384x8192.Idx) : ReadP.val_main_v19 (F := Ideal) pred i = ((Spec.off p : ℝ) : EReal) := by
  rw [ReadP.val_main_v19_apply, v18_val pred p hp]

theorem v34_at (i : S16384.Idx) : ReadP.val_main_v34 (F := Ideal) pred i = ((Spec.conf p : ℝ) : EReal) := by
  rw [ReadP.val_main_v34_apply, v16_val pred p hp]

end Batch

/-! ## The log-soft-max -/

theorem idx_c8_c10 (n : Fin 16384) (c : Fin 8192) :
    ReadP.idx_main_call0_v8 (ReadP.idx_main_call0_v10 (ix2 n c)) = ix1 n := by
  funext a
  match a with
  | ⟨0, _⟩ => rfl

section LogSoftmax

variable (pred : S16384x8192.Idx → EReal) (p : Fin 16384 → Fin 8192 → ℝ)
  (hp : ∀ n c, pred (ix2 n c) = ((p n c : ℝ) : EReal))
include hp

/-- The log-soft-max of class c in row n: the inlined function recomputes the row's maximum and sum of exponentials. -/
theorem v17_at (n : Fin 16384) (c : Fin 8192) :
    ReadP.val_main_v17 (F := Ideal) pred (ix2 n c)
      = (((p n c - rmax Spec.hC (p n)) - Real.log (rsum Spec.hC (p n)) : ℝ) : EReal) := by
  have e5 : ReadP.val_main_call0_v5 (F := Ideal) pred = ReadP.val_main_v5 (F := Ideal) pred := rfl
  have e7 : ReadP.val_main_call0_v7 (F := Ideal) pred = ReadP.val_main_v7 (F := Ideal) pred := rfl
  rw [ReadP.val_main_v17_apply, ReadP.val_main_call0_v10_apply, ReadP.val_main_call0_v9_apply,
    ReadP.val_main_call0_v8_apply, idx_c8_c10, e5, e7, v5_at pred p hp n c, v7_row pred p hp n,
    Ideal.hostUnary_log_def, log_coe_pos (rsum_pos Spec.hC (p n)), Ideal.subf_def, ← EReal.coe_sub]

end LogSoftmax

/-! ## The loss of one row, and the batch's result -/

theorem idx_v38 (n : Fin 16384) (k : Fin 8192) : ReadP.idx_main_v38 (ix1 n) k = ix2 n k := by
  funext a
  match a with
  | ⟨0, _⟩ => rfl
  | ⟨1, _⟩ => rfl

section Loss

variable (pred : S16384x8192.Idx → EReal) (tg : IVec S16384 32) (p : Fin 16384 → Fin 8192 → ℝ)
  (t : Fin 16384 → Fin 8192) (hin : Spec.Inputs pred tg p t)
include hin

/-- The smoothed target: conf on the label, off on every other class. -/
theorem v35_at (n : Fin 16384) (c : Fin 8192) :
    ReadP.val_main_v35 (F := Ideal) pred tg (ix2 n c) = (((if c = t n then Spec.conf p else Spec.off p) : ℝ) : EReal) := by
  unfold ReadP.val_main_v35
  rw [scatterSet_pair_apply scatter_S16384x8192_S16384x2_S16384_n_01_01_1 rfl rfl rfl _ _ _ t
    (v33_row tg) (v33_col tg t hin.ht) n c]
  by_cases h : c = t n
  · rw [if_pos h, if_pos h, v34_at pred p hin.hp]
  · rw [if_neg h, if_neg h, v19_at pred p hin.hp]

theorem v37_at (n : Fin 16384) (c : Fin 8192) :
    ReadP.val_main_v37 (F := Ideal) pred tg (ix2 n c)
      = (((-(if c = t n then Spec.conf p else Spec.off p))
          * ((p n c - rmax Spec.hC (p n)) - Real.log (rsum Spec.hC (p n))) : ℝ) : EReal) := by
  rw [ReadP.val_main_v37_apply, ReadP.val_main_v36_apply, v35_at pred tg p t hin n c, v17_at pred p hin.hp n c,
    Ideal.hostNegf_def, Ideal.negf_def, Ideal.mulf_def, ← EReal.coe_neg, ← EReal.coe_mul]

/-- The loss of row n: the cross entropy of the smoothed target against the row's log-soft-max, in closed form. -/
theorem v38_row (n : Fin 16384) :
    ReadP.val_main_v38 (F := Ideal) pred tg (ix1 n) = ((Spec.L p t n : ℝ) : EReal) := by
  rw [ReadP.val_main_v38_apply, ReadP.val_main_cst_12_apply, Ideal.ofBits_def, Ideal.ofBits_zero_f32, zero_add,
    Finset.sum_congr rfl (fun k _ => by rw [idx_v38, v37_at pred tg p t hin n k]), coe_sum,
    row_loss (fun c => p n c - rmax Spec.hC (p n)) (Real.log (rsum Spec.hC (p n))) (Spec.off p) (Spec.conf p) (t n),
    Nat.cast_ofNat]
  rfl

end Loss

/-- The class weight of row n's label. -/
theorem v45_row (tg : IVec S16384 32) (cw : S8192.Idx → EReal) (t : Fin 16384 → Fin 8192)
    (ht : ∀ n, tg (ix1 n) = BitVec.ofNat 32 (t n).val) (n : Fin 16384) :
    ReadP.val_main_v45 (F := Ideal) tg cw (ix1 n) = cw (ix1 (t n)) :=
  Spec.gather_label gather_S8192_S16384x1_S16384_n_0_n_n_0_1_1 rfl rfl rfl rfl bcast_S_S16384 bcast_S16384_S16384x1_0
    cw tg t ht n

/-- On inputs that hold reals and class numbers the reference's last stage is the batch's result. -/
theorem ref_value (pred : (⟨S16384x8192, .f32⟩ : BufTy).Contents (Elt Ideal)) (tg : (⟨S16384, .i32⟩ : BufTy).Contents (Elt Ideal))
    (cw : (⟨S8192, .f32⟩ : BufTy).Contents (Elt Ideal)) (p : Fin 16384 → Fin 8192 → ℝ) (t : Fin 16384 → Fin 8192)
    (hin : Spec.Inputs pred tg p t) :
    ReadP.val_main_v48 (F := Ideal) pred tg cw = fun _ => Spec.total p t cw := by
  funext i
  rw [ReadP.val_main_v48_apply, ReadP.val_main_v47_apply, ReadP.val_main_cst_15_apply, ReadP.val_main_cst_16_apply,
    Ideal.ofBits_def, Ideal.ofBits_def, Ideal.ofBits_zero_f32, Consts.ofBits_16384, sum_idx1, Ideal.hostDivf_def]
  unfold Spec.total
  refine congrArg (fun s => Ideal.div (0 + s) ((16384 : ℝ) : EReal)) (Finset.sum_congr rfl fun n _ => ?_)
  rw [ReadP.val_main_v46_apply, v38_row pred tg p t hin n, v45_row tg cw t hin.ht n, Ideal.mulf_def]

end Cert.ReferenceIdeal.RefValue

end
-- ==== Proof.lean ====
/-
  The certificate of a label-smoothing cross entropy with adaptive smoothing: a kernel that makes ONE pass over the
  [16384, 8192] logits, leaving four statistics per row (the maximum M, log S for S the sum of exp (logit - M), the sum of
  the shifted logits, and the label's shifted logit), followed by a few operations on vectors of 16384 entries, against
  the textbook computation through soft-max, log-soft-max and a scattered target distribution.

  Under the precondition — every logit finite and every label a class number in [0, 8192) — both programs end at the
  same extended real, Spec.total: the kernel's largest soft-max probability of a row, exp (-(log S)), is the reference's
  maximum over the classes of exp (logit - M) / S (RowMath.max_softmax), and the kernel's closed form of a row's loss is
  the reference's sum over the classes of -(target weight) · log-soft-max (RowMath.row_loss). The labels must be class
  numbers: the reference wraps a negative label the numpy way and drops an update past the last class, the kernel
  compares the class number with the label's word, so outside [0, 8192) the two disagree.
  The three frames: the two kernel programs' are the generated frame certificates; the reference's is its run with the
  result dropped. The idealization rewrote nothing, so its ledger is empty.
-/
import proofs.«424245_j53609781789400_3_alg».proof.Defs
import proofs.«424245_j53609781789400_3_alg».proof.Proof.Gen.Kernel
import proofs.«424245_j53609781789400_3_alg».proof.Proof.Gen.Kernel.Frame
import proofs.«424245_j53609781789400_3_alg».proof.Proof.Gen.KernelIdeal
import proofs.«424245_j53609781789400_3_alg».proof.Proof.Gen.KernelIdeal.Frame
import proofs.«424245_j53609781789400_3_alg».proof.Proof.Gen.ReferenceIdeal
import proofs.«424245_j53609781789400_3_alg».proof.Proof.Gen.Pre_finite_inputs
import proofs.«424245_j53609781789400_3_alg».proof.Proof.PreDecode
import proofs.«424245_j53609781789400_3_alg».proof.Proof.KernelRun
import proofs.«424245_j53609781789400_3_alg».proof.Proof.RefRunP
import proofs.«424245_j53609781789400_3_alg».proof.Proof.RefValue
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both idealized programs end at Spec.total of the inputs' reals and labels. -/
theorem algebraic : Cert.algebraic_KernelIdeal_ReferenceIdeal := by
  intro m ρ m' ρ' hpre hagree
  choose p t hin using fun c => Cert.PreDecode.inputs_of_pre _ _ _ (hpre c)
  refine ⟨fun c => fun _ => Spec.total (p c) (t c) (m ((c.tc : Thread Cert.KernelIdeal.nD Cert.KernelIdeal.τ).loc Cert.KernelIdeal.main_arg2)),
    Cert.KernelIdeal.KRun.run m ρ p t hin, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  exact Cert.ReferenceIdeal.RefValue.ref_value _ _ _ (p c) (t c) (hin c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
